-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v33) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192 : Shape := ⟨1, ![8192]⟩
abbrev S2x8 : Shape := ⟨2, ![2, 8]⟩
abbrev S8 : Shape := ⟨1, ![8]⟩
abbrev S8x8 : Shape := ⟨2, ![8, 8]⟩
abbrev S8x1 : Shape := ⟨2, ![8, 1]⟩
abbrev S1 : Shape := ⟨1, ![1]⟩
abbrev S1x1 : Shape := ⟨2, ![1, 1]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192 : S_.BroadcastsInDim S8192 (![] : Fin 0 → Fin S8192.rank)
  reducesTo_S8192_S_d0 : S8192.ReducesTo [0] S_
  bcast_S_S2x8 : S_.BroadcastsInDim S2x8 (![] : Fin 0 → Fin S2x8.rank)
  reducesTo_S2x8_S_d0_1 : S2x8.ReducesTo [0, 1] S_
  bcast_S_S8 : S_.BroadcastsInDim S8 (![] : Fin 0 → Fin S8.rank)
  reducesTo_S8_S_d0 : S8.ReducesTo [0] S_
  bcast_S_S8x8 : S_.BroadcastsInDim S8x8 (![] : Fin 0 → Fin S8x8.rank)
  reducesTo_S8x8_S_d0_1 : S8x8.ReducesTo [0, 1] S_
  bcast_S_S8x1 : S_.BroadcastsInDim S8x1 (![] : Fin 0 → Fin S8x1.rank)
  reducesTo_S8x1_S_d0_1 : S8x1.ReducesTo [0, 1] S_
  bcast_S_S1 : S_.BroadcastsInDim S1 (![] : Fin 0 → Fin S1.rank)
  reducesTo_S1_S_d0 : S1.ReducesTo [0] S_
  bcast_S_S1x1 : S_.BroadcastsInDim S1x1 (![] : Fin 0 → Fin S1x1.rank)
  reducesTo_S1x1_S_d0_1 : S1x1.ReducesTo [0, 1] S_

variable [Facts]

def fn_part5 {F : FTy → Type} [FloatOps F] (main_arg18 : FVec F S1 .f32) (main_v83 : IVec S_ 1) (main_v84 : FVec F S1x1 .f32) (main_cst_32 : FVec F S_ .f32) : IVec S_ 1 :=
  let main_v85 : FVec F S1x1 .f32 := broadcastInDim S1x1 ![] bcast_S_S1x1 main_cst_32
  let main_v86 : IVec S1x1 1 := cmpf .olt main_v84 main_v85
  let main_c_33 : IVec S_ 1 := constantI S_ 1 1#1
  let main_v87 : IVec S_ 1 := (fun x v => Host.reduce IntOp.andi x v reducesTo_S1x1_S_d0_1 h_S_) main_v86 main_c_33
  let main_v88 : IVec S_ 1 := andi main_v83 main_v87
  let main_v89 : FVec F S1 .f32 := Host.absf main_arg18
  let main_cst_34 : FVec F S_ .f32 := constant S_ .f32 0x7F800000#32
  let main_v90 : FVec F S1 .f32 := broadcastInDim S1 ![] bcast_S_S1 main_cst_34
  let main_v91 : IVec S1 1 := cmpf .olt main_v89 main_v90
  let main_c_35 : IVec S_ 1 := constantI S_ 1 1#1
  let main_v92 : IVec S_ 1 := (fun x v => Host.reduce IntOp.andi x v reducesTo_S1_S_d0 h_S_) main_v91 main_c_35
  let main_v93 : IVec S_ 1 := andi main_v88 main_v92
  main_v93

def fn_part4 {F : FTy → Type} [FloatOps F] (main_arg14 : FVec F S1 .f32) (main_arg15 : FVec F S8x1 .f32) (main_arg16 : FVec F S1 .f32) (main_arg17 : FVec F S1x1 .f32) (main_arg18 : FVec F S1 .f32) (main_v63 : IVec S_ 1) (main_v67 : IVec S_ 1) : IVec S_ 1 :=
  let main_v68 : IVec S_ 1 := andi main_v63 main_v67
  let main_v69 : FVec F S1 .f32 := Host.absf main_arg14
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  let main_v74 : FVec F S8x1 .f32 := Host.absf main_arg15
  let main_cst_28 : FVec F S_ .f32 := constant S_ .f32 0x7F800000#32
  let main_v75 : FVec F S8x1 .f32 := broadcastInDim S8x1 ![] bcast_S_S8x1 main_cst_28
  let main_v76 : IVec S8x1 1 := cmpf .olt main_v74 main_v75
  let main_c_29 : IVec S_ 1 := constantI S_ 1 1#1
  let main_v77 : IVec S_ 1 := (fun x v => Host.reduce IntOp.andi x v reducesTo_S8x1_S_d0_1 h_S_) main_v76 main_c_29
  let main_v78 : IVec S_ 1 := andi main_v73 main_v77
  let main_v79 : FVec F S1 .f32 := Host.absf main_arg16
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  let main_v84 : FVec F S1x1 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S8x1 .f32) (main_arg12 : FVec F S1 .f32) (main_arg13 : FVec F S1x1 .f32) (main_arg14 : FVec F S1 .f32) (main_arg15 : FVec F S8x1 .f32) (main_arg16 : FVec F S1 .f32) (main_arg17 : FVec F S1x1 .f32) (main_arg18 : FVec F S1 .f32) (main_v48 : IVec S_ 1) (main_v49 : FVec F S8 .f32) (main_v50 : FVec F S8 .f32) : IVec S_ 1 :=
  let main_v51 : IVec S8 1 := cmpf .olt main_v49 main_v50
  let main_c_19 : IVec S_ 1 := constantI S_ 1 1#1
  let main_v52 : IVec S_ 1 := (fun x v => Host.reduce IntOp.andi x v reducesTo_S8_S_d0 h_S_) main_v51 main_c_19
  let main_v53 : IVec S_ 1 := andi main_v48 main_v52
  let main_v54 : FVec F S8x1 .f32 := Host.absf main_arg11
  let main_cst_20 : FVec F S_ .f32 := constant S_ .f32 0x7F800000#32
  let main_v55 : FVec F S8x1 .f32 := broadcastInDim S8x1 ![] bcast_S_S8x1 main_cst_20
  let main_v56 : IVec S8x1 1 := cmpf .olt main_v54 main_v55
  let main_c_21 : IVec S_ 1 := constantI S_ 1 1#1
  let main_v57 : IVec S_ 1 := (fun x v => Host.reduce IntOp.andi x v reducesTo_S8x1_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : FVec F S1x1 .f32 := Host.absf main_arg13
  let main_cst_24 : FVec F S_ .f32 := constant S_ .f32 0x7F800000#32
  let main_v65 : FVec F S1x1 .f32 := broadcastInDim S1x1 ![] bcast_S_S1x1 main_cst_24
  let main_v66 : IVec S1x1 1 := cmpf .olt main_v64 main_v65
  let main_c_25 : IVec S_ 1 := constantI S_ 1 1#1
  let main_v67 : IVec S_ 1 := (fun x v => Host.reduce IntOp.andi x v reducesTo_S1x1_S_d0_1 h_S_) main_v66 main_c_25
  fn_part4 (F := F) main_arg14 main_arg15 main_arg16 main_arg17 main_arg18 main_v63 main_v67

def fn_part2 {F : FTy → Type} [FloatOps F] (main_arg7 : FVec F S8x8 .f32) (main_arg8 : FVec F S8 .f32) (main_arg9 : FVec F S8x8 .f32) (main_arg10 : FVec F S8 .f32) (main_arg11 : FVec F S8x1 .f32) (main_arg12 : FVec F S1 .f32) (main_arg13 : FVec F S1x1 .f32) (main_arg14 : FVec F S1 .f32) (main_arg15 : FVec F S8x1 .f32) (main_arg16 : FVec F S1 .f32) (main_arg17 : FVec F S1x1 .f32) (main_arg18 : FVec F S1 .f32) (main_v33 : IVec S_ 1) : IVec S_ 1 :=
  let main_v34 : FVec F S8x8 .f32 := Host.absf main_arg7
  let main_cst_12 : FVec F S_ .f32 := constant S_ .f32 0x7F800000#32
  let main_v35 : FVec F S8x8 .f32 := broadcastInDim S8x8 ![] bcast_S_S8x8 main_cst_12
  let main_v36 : IVec S8x8 1 := cmpf .olt main_v34 main_v35
  let main_c_13 : IVec S_ 1 := constantI S_ 1 1#1
  let main_v37 : IVec S_ 1 := (fun x v => Host.reduce IntOp.andi x v reducesTo_S8x8_S_d0_1 h_S_) main_v36 main_c_13
  let main_v38 : IVec S_ 1 := andi main_v33 main_v37
  let main_v39 : FVec F S8 .f32 := Host.absf main_arg8
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  let main_v44 : FVec F S8x8 .f32 := Host.absf main_arg9
  let main_cst_16 : FVec F S_ .f32 := constant S_ .f32 0x7F800000#32
  let main_v45 : FVec F S8x8 .f32 := broadcastInDim S8x8 ![] bcast_S_S8x8 main_cst_16
  let main_v46 : IVec S8x8 1 := cmpf .olt main_v44 main_v45
  let main_c_17 : IVec S_ 1 := constantI S_ 1 1#1
  let main_v47 : IVec S_ 1 := (fun x v => Host.reduce IntOp.andi x v reducesTo_S8x8_S_d0_1 h_S_) main_v46 main_c_17
  let main_v48 : IVec S_ 1 := andi main_v43 main_v47
  let main_v49 : FVec F S8 .f32 := Host.absf main_arg10
  let main_cst_18 : FVec F S_ .f32 := constant S_ .f32 0x7F800000#32
  let main_v50 : FVec F S8 .f32 := broadcastInDim S8 ![] bcast_S_S8 main_cst_18
  fn_part3 (F := F) main_arg11 main_arg12 main_arg13 main_arg14 main_arg15 main_arg16 main_arg17 main_arg18 main_v48 main_v49 main_v50

def fn_part1 {F : FTy → Type} [FloatOps F] (main_arg4 : FVec F S8 .f32) (main_arg5 : FVec F S8x8 .f32) (main_arg6 : FVec F S8 .f32) (main_arg7 : FVec F S8x8 .f32) (main_arg8 : FVec F S8 .f32) (main_arg9 : FVec F S8x8 .f32) (main_arg10 : FVec F S8 .f32) (main_arg11 : FVec F S8x1 .f32) (main_arg12 : FVec F S1 .f32) (main_arg13 : FVec F S1x1 .f32) (main_arg14 : FVec F S1 .f32) (main_arg15 : FVec F S8x1 .f32) (main_arg16 : FVec F S1 .f32) (main_arg17 : FVec F S1x1 .f32) (main_arg18 : FVec F S1 .f32) (main_v13 : IVec S_ 1) (main_v16 : IVec S2x8 1) : IVec S_ 1 :=
  let main_c_5 : IVec S_ 1 := constantI S_ 1 1#1
  let main_v17 : IVec S_ 1 := (fun x v => Host.reduce IntOp.andi x v reducesTo_S2x8_S_d0_1 h_S_) main_v16 main_c_5
  let main_v18 : IVec S_ 1 := andi main_v13 main_v17
  let main_v19 : FVec F S8 .f32 := Host.absf main_arg4
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S8x8 .f32 := Host.absf main_arg5
  let main_cst_8 : FVec F S_ .f32 := constant S_ .f32 0x7F800000#32
  let main_v25 : FVec F S8x8 .f32 := broadcastInDim S8x8 ![] bcast_S_S8x8 main_cst_8
  let main_v26 : IVec S8x8 1 := cmpf .olt main_v24 main_v25
  let main_c_9 : IVec S_ 1 := constantI S_ 1 1#1
  let main_v27 : IVec S_ 1 := (fun x v => Host.reduce IntOp.andi x v reducesTo_S8x8_S_d0_1 h_S_) main_v26 main_c_9
  let main_v28 : IVec S_ 1 := andi main_v23 main_v27
  let main_v29 : FVec F S8 .f32 := Host.absf main_arg6
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S8192x8192 .f32) (main_arg1 : FVec F S8192 .f32) (main_arg2 : FVec F S8192 .f32) (main_arg3 : FVec F S2x8 .f32) (main_arg4 : FVec F S8 .f32) (main_arg5 : FVec F S8x8 .f32) (main_arg6 : FVec F S8 .f32) (main_arg7 : FVec F S8x8 .f32) (main_arg8 : FVec F S8 .f32) (main_arg9 : FVec F S8x8 .f32) (main_arg10 : FVec F S8 .f32) (main_arg11 : FVec F S8x1 .f32) (main_arg12 : FVec F S1 .f32) (main_arg13 : FVec F S1x1 .f32) (main_arg14 : FVec F S1 .f32) (main_arg15 : FVec F S8x1 .f32) (main_arg16 : FVec F S1 .f32) (main_arg17 : FVec F S1x1 .f32) (main_arg18 : FVec F S1 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S2x8 .f32 := Host.absf main_arg3
  let main_cst_4 : FVec F S_ .f32 := constant S_ .f32 0x7F800000#32
  let main_v15 : FVec F S2x8 .f32 := broadcastInDim S2x8 ![] bcast_S_S2x8 main_cst_4
  let main_v16 : IVec S2x8 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S8192x8192 : Shape := ⟨2, ![8192, 8192]⟩
abbrev S8192 : Shape := ⟨1, ![8192]⟩
abbrev S2x8 : Shape := ⟨2, ![2, 8]⟩
abbrev S8 : Shape := ⟨1, ![8]⟩
abbrev S8x8 : Shape := ⟨2, ![8, 8]⟩
abbrev S8x1 : Shape := ⟨2, ![8, 1]⟩
abbrev S1 : Shape := ⟨1, ![1]⟩
abbrev S1x1 : Shape := ⟨2, ![1, 1]⟩
abbrev S256x8192 : Shape := ⟨2, ![256, 8192]⟩
abbrev S8192x1 : Shape := ⟨2, ![8192, 1]⟩
abbrev S8192x2 : Shape := ⟨2, ![8192, 2]⟩
abbrev S8192x8 : Shape := ⟨2, ![8192, 8]⟩
abbrev S1024x8192 : Shape := ⟨2, ![1024, 8192]⟩
abbrev S1024x8 : Shape := ⟨2, ![1024, 8]⟩
abbrev S1024x2 : Shape := ⟨2, ![1024, 2]⟩
abbrev S1x8 : Shape := ⟨2, ![1, 8]⟩
abbrev S1024x1 : Shape := ⟨2, ![1024, 1]⟩
abbrev S_ : Shape := ⟨0, ![]⟩

abbrev nBuf : Space → Nat
  | .hbm => 61
  | .vmem => 40
  | .smem => 0
  | _ => 0

abbrev bufTy : (tb : Table) → Fin (tcTables nBuf tb) → BufTy
  | .hbm, ⟨0, _⟩ => ⟨S8192x8192, .f32⟩
  | .hbm, ⟨1, _⟩ => ⟨S8192, .f32⟩
  | .hbm, ⟨2, _⟩ => ⟨S8192, .f32⟩
  | .hbm, ⟨3, _⟩ => ⟨S2x8, .f32⟩
  | .hbm, ⟨4, _⟩ => ⟨S8, .f32⟩
  | .hbm, ⟨5, _⟩ => ⟨S8x8, .f32⟩
  | .hbm, ⟨6, _⟩ => ⟨S8, .f32⟩
  | .hbm, ⟨7, _⟩ => ⟨S8x8, .f32⟩
  | .hbm, ⟨8, _⟩ => ⟨S8, .f32⟩
  | .hbm, ⟨9, _⟩ => ⟨S8x8, .f32⟩
  | .hbm, ⟨10, _⟩ => ⟨S8, .f32⟩
  | .hbm, ⟨11, _⟩ => ⟨S8x1, .f32⟩
  | .hbm, ⟨12, _⟩ => ⟨S1, .f32⟩
  | .hbm, ⟨13, _⟩ => ⟨S1x1, .f32⟩
  | .hbm, ⟨14, _⟩ => ⟨S1, .f32⟩
  | .hbm, ⟨15, _⟩ => ⟨S8x1, .f32⟩
  | .hbm, ⟨16, _⟩ => ⟨S1, .f32⟩
  | .hbm, ⟨17, _⟩ => ⟨S1x1, .f32⟩
  | .hbm, ⟨18, _⟩ => ⟨S1, .f32⟩
  | .hbm, ⟨19, _⟩ => ⟨S8192x8192, .bf16⟩
  | .hbm, ⟨20, _⟩ => ⟨S8192x1, .f32⟩
  | .hbm, ⟨21, _⟩ => ⟨S8192x1, .f32⟩
  | .hbm, ⟨22, _⟩ => ⟨S8192x2, .f32⟩
  | .hbm, ⟨23, _⟩ => ⟨S8192x2, .bf16⟩
  | .hbm, ⟨24, _⟩ => ⟨S8192x8, .bf16⟩
  | .hbm, ⟨25, _⟩ => ⟨S8192x8, .bf16⟩
  | .hbm, ⟨26, _⟩ => ⟨S8192x1, .f32⟩
  | .hbm, ⟨27, _⟩ => ⟨S8192x1, .f32⟩
  | .hbm, ⟨28, _⟩ => ⟨S8192, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S1, .f32⟩
  | .hbm, ⟨34, _⟩ => ⟨S8192, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S_, .f32⟩
  | .hbm, ⟨39, _⟩ => ⟨S1, .f32⟩
  | .hbm, ⟨40, _⟩ => ⟨S8192, .f32⟩
  | .hbm, ⟨41, _⟩ => ⟨S8192, .f32⟩
  | .hbm, ⟨42, _⟩ => ⟨S8192, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S8192, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S8192, .f32⟩
  | .hbm, ⟨58, _⟩ => ⟨S8192, .f32⟩
  | .hbm, ⟨59, _⟩ => ⟨S8192, .f32⟩
  | .hbm, ⟨60, _⟩ => ⟨S8192, .f32⟩
  | .local _ .vmem, ⟨0, _⟩ => ⟨S256x8192, .f32⟩
  | .local _ .vmem, ⟨1, _⟩ => ⟨S256x8192, .f32⟩
  | .local _ .vmem, ⟨2, _⟩ => ⟨S256x8192, .bf16⟩
  | .local _ .vmem, ⟨3, _⟩ => ⟨S256x8192, .bf16⟩
  | .local _ .vmem, ⟨4, _⟩ => ⟨S1024x8192, .bf16⟩
  | .local _ .vmem, ⟨5, _⟩ => ⟨S1024x8192, .bf16⟩
  | .local _ .vmem, ⟨6, _⟩ => ⟨S8192x2, .bf16⟩
  | .local _ .vmem, ⟨7, _⟩ => ⟨S2x8, .f32⟩
  | .local _ .vmem, ⟨8, _⟩ => ⟨S8, .f32⟩
  | .local _ .vmem, ⟨9, _⟩ => ⟨S8x8, .f32⟩
  | .local _ .vmem, ⟨10, _⟩ => ⟨S8, .f32⟩
  | .local _ .vmem, ⟨11, _⟩ => ⟨S1024x8, .bf16⟩
  | .local _ .vmem, ⟨12, _⟩ => ⟨S1024x8, .bf16⟩
  | .local _ .vmem, ⟨13, _⟩ => ⟨S1024x8192, .bf16⟩
  | .local _ .vmem, ⟨14, _⟩ => ⟨S1024x8192, .bf16⟩
  | .local _ .vmem, ⟨15, _⟩ => ⟨S8192x8, .bf16⟩
  | .local _ .vmem, ⟨16, _⟩ => ⟨S8x8, .f32⟩
  | .local _ .vmem, ⟨17, _⟩ => ⟨S8, .f32⟩
  | .local _ .vmem, ⟨18, _⟩ => ⟨S8x8, .f32⟩
  | .local _ .vmem, ⟨19, _⟩ => ⟨S8, .f32⟩
  | .local _ .vmem, ⟨20, _⟩ => ⟨S1024x8, .bf16⟩
  | .local _ .vmem, ⟨21, _⟩ => ⟨S1024x8, .bf16⟩
  | .local _ .vmem, ⟨22, _⟩ => ⟨S1024x8192, .bf16⟩
  | .local _ .vmem, ⟨23, _⟩ => ⟨S1024x8192, .bf16⟩
  | .local _ .vmem, ⟨24, _⟩ => ⟨S8192x8, .bf16⟩
  | .local _ .vmem, ⟨25, _⟩ => ⟨S8x1, .f32⟩
  | .local _ .vmem, ⟨26, _⟩ => ⟨S1, .f32⟩
  | .local _ .vmem, ⟨27, _⟩ => ⟨S1x1, .f32⟩
  | .local _ .vmem, ⟨28, _⟩ => ⟨S1, .f32⟩
  | .local _ .vmem, ⟨29, _⟩ => ⟨S1024x1, .f32⟩
  | .local _ .vmem, ⟨30, _⟩ => ⟨S1024x1, .f32⟩
  | .local _ .vmem, ⟨31, _⟩ => ⟨S1024x8192, .bf16⟩
  | .local _ .vmem, ⟨32, _⟩ => ⟨S1024x8192, .bf16⟩
  | .local _ .vmem, ⟨33, _⟩ => ⟨S8192x8, .bf16⟩
  | .local _ .vmem, ⟨34, _⟩ => ⟨S8x1, .f32⟩
  | .local _ .vmem, ⟨35, _⟩ => ⟨S1, .f32⟩
  | .local _ .vmem, ⟨36, _⟩ => ⟨S1x1, .f32⟩
  | .local _ .vmem, ⟨37, _⟩ => ⟨S1, .f32⟩
  | .local _ .vmem, ⟨38, _⟩ => ⟨S1024x1, .f32⟩
  | .local _ .vmem, ⟨39, _⟩ => ⟨S1024x1, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst : Ref sig .tc := ⟨.hbm, 29, rfl⟩
abbrev main_v10 : Ref sig .tc := ⟨.hbm, 30, rfl⟩
abbrev main_cst_0 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_1 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_2 : Ref sig .tc := ⟨.hbm, 43, rfl⟩
abbrev main_v21 : Ref sig .tc := ⟨.hbm, 44, rfl⟩
abbrev main_cst_3 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_4 : Ref sig .tc := ⟨.hbm, 50, rfl⟩
abbrev main_v26 : Ref sig .tc := ⟨.hbm, 51, rfl⟩
abbrev main_cst_5 : Ref sig .tc := ⟨.hbm, 52, rfl⟩
abbrev main_v27 : Ref sig .tc := ⟨.hbm, 53, rfl⟩
abbrev main_cst_6 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg6_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg6_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg6_0 : Ref sig .tc := ⟨.vmem, 29, rfl⟩
abbrev cc3_stg6_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg5_0 : Ref sig .tc := ⟨.vmem, 37, rfl⟩
abbrev cc4_stg6_0 : Ref sig .tc := ⟨.vmem, 38, rfl⟩
abbrev cc4_stg6_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem6_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem6_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem6_0 : DmaSem sig := 29
abbrev cc3_sem6_1 : DmaSem sig := 30
abbrev cc4_sem0_0 : DmaSem sig := 31
abbrev cc4_sem0_1 : DmaSem sig := 32
abbrev cc4_sem1_0 : DmaSem sig := 33
abbrev cc4_sem2_0 : DmaSem sig := 34
abbrev cc4_sem3_0 : DmaSem sig := 35
abbrev cc4_sem4_0 : DmaSem sig := 36
abbrev cc4_sem5_0 : DmaSem sig := 37
abbrev cc4_sem6_0 : DmaSem sig := 38
abbrev cc4_sem6_1 : DmaSem sig := 39

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x8192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x2 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x8 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1024x8 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x8192 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8192x8 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S8x8 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S8 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S8x8 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S8 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1024x8 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x8192 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S8192x8 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S8x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S1024x1 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x8192 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S8192x8 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S8x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S1024x1 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  inb_S256x8192_S256x8192_0_0 : ∀ a, (![0, 0] : Fin 2 → Nat) a + S256x8192.size a ≤ S256x8192.size a
  h_S256x8192 : 0 < S256x8192.numel
  bitsLt_bf16_f32 : FTy.bits .bf16 < FTy.bits .f32
  packedbf16_S256x8192_S256x8192_0_0 : (Rect.unit (s := S256x8192) ![0, 0] S256x8192.size inb_S256x8192_S256x8192_0_0).PackedRows (EltTy.packing .bf16)
  bcast_S8192_S8192x1_0 : S8192.BroadcastsInDim S8192x1 (![0] : Fin 1 → Fin S8192x1.rank)
  concatenates_S8192x1_S8192x1_S8192x2_d1 : Shape.Concatenates [S8192x1, S8192x1] S8192x2 1
  inb_S1024x8192_S1024x8192_0_0 : ∀ a, (![0, 0] : Fin 2 → Nat) a + S1024x8192.size a ≤ S1024x8192.size a
  h_S1024x8192 : 0 < S1024x8192.numel
  shapeCasts_S1024x8192_S1024x8192 : S1024x8192.ShapeCasts S1024x8192
  inb_S8192x2_S8192x2_0_0 : ∀ a, (![0, 0] : Fin 2 → Nat) a + S8192x2.size a ≤ S8192x2.size a
  h_S8192x2 : 0 < S8192x2.numel
  shapeCasts_S8192x2_S8192x2 : S8192x2.ShapeCasts S8192x2
  inb_S2x8_S2x8_0_0 : ∀ a, (![0, 0] : Fin 2 → Nat) a + S2x8.size a ≤ S2x8.size a
  h_S2x8 : 0 < S2x8.numel
  inb_S8_S8_0 : ∀ a, (![0] : Fin 1 → Nat) a + S8.size a ≤ S8.size a
  h_S8 : 0 < S8.numel
  shapeCasts_S8_S1x8 : S8.ShapeCasts S1x8
  broadcasts_S1x8_S1024x8 : S1x8.Broadcasts S1024x8
  inb_S8x8_S8x8_0_0 : ∀ a, (![0, 0] : Fin 2 → Nat) a + S8x8.size a ≤ S8x8.size a
  h_S8x8 : 0 < S8x8.numel
  inb_S1024x8_S1024x8_0_0 : ∀ a, (![0, 0] : Fin 2 → Nat) a + S1024x8.size a ≤ S1024x8.size a
  h_S1024x8 : 0 < S1024x8.numel
  packedbf16_S1024x8_S1024x8_0_0 : (Rect.unit (s := S1024x8) ![0, 0] S1024x8.size inb_S1024x8_S1024x8_0_0).PackedRows (EltTy.packing .bf16)
  inb_S8192x8_S8192x8_0_0 : ∀ a, (![0, 0] : Fin 2 → Nat) a + S8192x8.size a ≤ S8192x8.size a
  h_S8192x8 : 0 < S8192x8.numel
  shapeCasts_S8192x8_S8192x8 : S8192x8.ShapeCasts S8192x8
  inb_S8x1_S8x1_0_0 : ∀ a, (![0, 0] : Fin 2 → Nat) a + S8x1.size a ≤ S8x1.size a
  h_S8x1 : 0 < S8x1.numel
  inb_S1_S1_0 : ∀ a, (![0] : Fin 1 → Nat) a + S1.size a ≤ S1.size a
  h_S1 : 0 < S1.numel
  shapeCasts_S1_S1x1 : S1.ShapeCasts S1x1
  broadcasts_S1x1_S1024x1 : S1x1.Broadcasts S1024x1
  inb_S1x1_S1x1_0_0 : ∀ a, (![0, 0] : Fin 2 → Nat) a + S1x1.size a ≤ S1x1.size a
  h_S1x1 : 0 < S1x1.numel
  inb_S1024x1_S1024x1_0_0 : ∀ a, (![0, 0] : Fin 2 → Nat) a + S1024x1.size a ≤ S1024x1.size a
  h_S1024x1 : 0 < S1024x1.numel
  shapeCasts_S8192x1_S8192 : S8192x1.ShapeCasts S8192
  reducesTo_S8192_S_d0 : S8192.ReducesTo [0] S_
  h_S_ : 0 < S_.numel
  bcast_S_S1 : S_.BroadcastsInDim S1 (![] : Fin 0 → Fin S1.rank)
  bcast_S1_S8192_0 : S1.BroadcastsInDim S8192 (![0] : Fin 1 → Fin S8192.rank)
  bcast_S_S8192 : S_.BroadcastsInDim S8192 (![] : Fin 0 → Fin S8192.rank)
  dot_S1024x8192_S8192x2_S1024x2_1_0_0_1_n_n_wf : DotDims.WF S1024x8192 S8192x2 S1024x2 [1] [0] [0] [1] [] []
  dot_S1024x2_S2x8_S1024x8_1_0_0_1_n_n_wf : DotDims.WF S1024x2 S2x8 S1024x8 [1] [0] [0] [1] [] []
  dot_S1024x8_S8x8_S1024x8_1_0_0_1_n_n_wf : DotDims.WF S1024x8 S8x8 S1024x8 [1] [0] [0] [1] [] []
  dot_S1024x8192_S8192x8_S1024x8_1_0_0_1_n_n_wf : DotDims.WF S1024x8192 S8192x8 S1024x8 [1] [0] [0] [1] [] []
  dot_S1024x8_S8x1_S1024x1_1_0_0_1_n_n_wf : DotDims.WF S1024x8 S8x1 S1024x1 [1] [0] [0] [1] [] []
  dot_S1024x1_S1x1_S1024x1_1_0_0_1_n_n_wf : DotDims.WF S1024x1 S1x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S8192x8192.size a
  hwx0_1 : ∀ i : grid0.Coords, EltTy.bits .bf16 = 32 ∨ (Rect.block (s := S8192x8192) S256x8192.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x8192.size a ≤ S8192x8192.size a
  hwx1_0 : ∀ i : grid1.Coords, EltTy.bits .bf16 = 32 ∨ (Rect.block (s := S8192x8192) S1024x8192.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x2.size a ≤ S8192x2.size a
  hwx1_1 : ∀ i : grid1.Coords, EltTy.bits .bf16 = 32 ∨ (Rect.block (s := S8192x2) S8192x2.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2x8.size a ≤ S2x8.size a
  hwx1_2 : ∀ i : grid1.Coords, EltTy.bits .f32 = 32 ∨ (Rect.block (s := S2x8) S2x8.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8.size a ≤ S8.size a
  hwx1_3 : ∀ i : grid1.Coords, EltTy.bits .f32 = 32 ∨ (Rect.block (s := S8) S8.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8x8.size a ≤ S8x8.size a
  hwx1_4 : ∀ i : grid1.Coords, EltTy.bits .f32 = 32 ∨ (Rect.block (s := S8x8) S8x8.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S8.size a ≤ S8.size a
  hwx1_5 : ∀ i : grid1.Coords, EltTy.bits .f32 = 32 ∨ (Rect.block (s := S8) S8.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x8.size a ≤ S8192x8.size a
  hwx1_6 : ∀ i : grid1.Coords, EltTy.bits .bf16 = 32 ∨ (Rect.block (s := S8192x8) S1024x8.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x8192.size a ≤ S8192x8192.size a
  hwx2_0 : ∀ i : grid2.Coords, EltTy.bits .bf16 = 32 ∨ (Rect.block (s := S8192x8192) S1024x8192.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x8.size a ≤ S8192x8.size a
  hwx2_1 : ∀ i : grid2.Coords, EltTy.bits .bf16 = 32 ∨ (Rect.block (s := S8192x8) S8192x8.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S8x8.size a ≤ S8x8.size a
  hwx2_2 : ∀ i : grid2.Coords, EltTy.bits .f32 = 32 ∨ (Rect.block (s := S8x8) S8x8.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S8.size a ≤ S8.size a
  hwx2_3 : ∀ i : grid2.Coords, EltTy.bits .f32 = 32 ∨ (Rect.block (s := S8) S8.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S8x8.size a ≤ S8x8.size a
  hwx2_4 : ∀ i : grid2.Coords, EltTy.bits .f32 = 32 ∨ (Rect.block (s := S8x8) S8x8.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S8.size a ≤ S8.size a
  hwx2_5 : ∀ i : grid2.Coords, EltTy.bits .f32 = 32 ∨ (Rect.block (s := S8) S8.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1024x8.size a ≤ S8192x8.size a
  hwx2_6 : ∀ i : grid2.Coords, EltTy.bits .bf16 = 32 ∨ (Rect.block (s := S8192x8) S1024x8.size (cc2_transform_6 i) (hinb2_6 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x8192.size a ≤ S8192x8192.size a
  hwx3_0 : ∀ i : grid3.Coords, EltTy.bits .bf16 = 32 ∨ (Rect.block (s := S8192x8192) S1024x8192.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S8192x8.size a ≤ S8192x8.size a
  hwx3_1 : ∀ i : grid3.Coords, EltTy.bits .bf16 = 32 ∨ (Rect.block (s := S8192x8) S8192x8.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S8x1.size a ≤ S8x1.size a
  hwx3_2 : ∀ i : grid3.Coords, EltTy.bits .f32 = 32 ∨ (Rect.block (s := S8x1) S8x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1.size a ≤ S1.size a
  hwx3_3 : ∀ i : grid3.Coords, EltTy.bits .f32 = 32 ∨ (Rect.block (s := S1) S1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1.size a ≤ S1x1.size a
  hwx3_4 : ∀ i : grid3.Coords, EltTy.bits .f32 = 32 ∨ (Rect.block (s := S1x1) S1x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1.size a ≤ S1.size a
  hwx3_5 : ∀ i : grid3.Coords, EltTy.bits .f32 = 32 ∨ (Rect.block (s := S1) S1.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1024x1.size a ≤ S8192x1.size a
  hwx3_6 : ∀ i : grid3.Coords, EltTy.bits .f32 = 32 ∨ (Rect.block (s := S8192x1) S1024x1.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x8192.size a ≤ S8192x8192.size a
  hwx4_0 : ∀ i : grid4.Coords, EltTy.bits .bf16 = 32 ∨ (Rect.block (s := S8192x8192) S1024x8192.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S8192x8.size a ≤ S8192x8.size a
  hwx4_1 : ∀ i : grid4.Coords, EltTy.bits .bf16 = 32 ∨ (Rect.block (s := S8192x8) S8192x8.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S8x1.size a ≤ S8x1.size a
  hwx4_2 : ∀ i : grid4.Coords, EltTy.bits .f32 = 32 ∨ (Rect.block (s := S8x1) S8x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1.size a ≤ S1.size a
  hwx4_3 : ∀ i : grid4.Coords, EltTy.bits .f32 = 32 ∨ (Rect.block (s := S1) S1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1.size a ≤ S1x1.size a
  hwx4_4 : ∀ i : grid4.Coords, EltTy.bits .f32 = 32 ∨ (Rect.block (s := S1x1) S1x1.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1.size a ≤ S1.size a
  hwx4_5 : ∀ i : grid4.Coords, EltTy.bits .f32 = 32 ∨ (Rect.block (s := S1) S1.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S1024x1.size a ≤ S8192x1.size a
  hwx4_6 : ∀ i : grid4.Coords, EltTy.bits .f32 = 32 ∨ (Rect.block (s := S8192x1) S1024x1.size (cc4_transform_6 i) (hinb4_6 i)).WholeWords (EltTy.packing .f32)

variable [Facts₀]

def dot_S1024x8192_S8192x2_S1024x2_1_0_0_1_n_n : DotDims S1024x8192 S8192x2 S1024x2 where
  lhsContracting := [1]
  rhsContracting := [0]
  lhsNonContracting := [0]
  rhsNonContracting := [1]
  lhsBatch := []
  rhsBatch := []
  wf := dot_S1024x8192_S8192x2_S1024x2_1_0_0_1_n_n_wf
def dot_S1024x2_S2x8_S1024x8_1_0_0_1_n_n : DotDims S1024x2 S2x8 S1024x8 where
  lhsContracting := [1]
  rhsContracting := [0]
  lhsNonContracting := [0]
  rhsNonContracting := [1]
  lhsBatch := []
  rhsBatch := []
  wf := dot_S1024x2_S2x8_S1024x8_1_0_0_1_n_n_wf
def dot_S1024x8_S8x8_S1024x8_1_0_0_1_n_n : DotDims S1024x8 S8x8 S1024x8 where
  lhsContracting := [1]
  rhsContracting := [0]
  lhsNonContracting := [0]
  rhsNonContracting := [1]
  lhsBatch := []
  rhsBatch := []
  wf := dot_S1024x8_S8x8_S1024x8_1_0_0_1_n_n_wf
def dot_S1024x8192_S8192x8_S1024x8_1_0_0_1_n_n : DotDims S1024x8192 S8192x8 S1024x8 where
  lhsContracting := [1]
  rhsContracting := [0]
  lhsNonContracting := [0]
  rhsNonContracting := [1]
  lhsBatch := []
  rhsBatch := []
  wf := dot_S1024x8192_S8192x8_S1024x8_1_0_0_1_n_n_wf
def dot_S1024x8_S8x1_S1024x1_1_0_0_1_n_n : DotDims S1024x8 S8x1 S1024x1 where
  lhsContracting := [1]
  rhsContracting := [0]
  lhsNonContracting := [0]
  rhsNonContracting := [1]
  lhsBatch := []
  rhsBatch := []
  wf := dot_S1024x8_S8x1_S1024x1_1_0_0_1_n_n_wf
def dot_S1024x1_S1x1_S1024x1_1_0_0_1_n_n : DotDims S1024x1 S1x1 S1024x1 where
  lhsContracting := [1]
  rhsContracting := [0]
  lhsNonContracting := [0]
  rhsNonContracting := [1]
  lhsBatch := []
  rhsBatch := []
  wf := dot_S1024x1_S1x1_S1024x1_1_0_0_1_n_n_wf

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x8192.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S1024x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S8192x2.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S2x8.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S8.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S8x8.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S8.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v5) S1024x8.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v0) S1024x8192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S8192x8.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S8x8.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S8.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S8x8.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg10) S8.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v6) S1024x8.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v0) S1024x8192.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v6) S8192x8.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S8x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg12) S1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg13) S1x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg14) S1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v7) S1024x1.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v0) S1024x8192.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v6) S8192x8.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg15) S8x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg16) S1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg17) S1x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg18) S1.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v8) S1024x1.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S8192x8192 : Shape := ⟨2, ![8192, 8192]⟩
abbrev S8192 : Shape := ⟨1, ![8192]⟩
abbrev S2x8 : Shape := ⟨2, ![2, 8]⟩
abbrev S8 : Shape := ⟨1, ![8]⟩
abbrev S8x8 : Shape := ⟨2, ![8, 8]⟩
abbrev S8x1 : Shape := ⟨2, ![8, 1]⟩
abbrev S1 : Shape := ⟨1, ![1]⟩
abbrev S1x1 : Shape := ⟨2, ![1, 1]⟩
abbrev S8192x1 : Shape := ⟨2, ![8192, 1]⟩
abbrev S8192x2 : Shape := ⟨2, ![8192, 2]⟩
abbrev S8192x8 : Shape := ⟨2, ![8192, 8]⟩
abbrev S1x8 : Shape := ⟨2, ![1, 8]⟩
abbrev S_ : Shape := ⟨0, ![]⟩

abbrev nBuf : Space → Nat
  | .hbm => 109
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192, .f32⟩
  | .hbm, ⟨2, _⟩ => ⟨S8192, .f32⟩
  | .hbm, ⟨3, _⟩ => ⟨S2x8, .f32⟩
  | .hbm, ⟨4, _⟩ => ⟨S8, .f32⟩
  | .hbm, ⟨5, _⟩ => ⟨S8x8, .f32⟩
  | .hbm, ⟨6, _⟩ => ⟨S8, .f32⟩
  | .hbm, ⟨7, _⟩ => ⟨S8x8, .f32⟩
  | .hbm, ⟨8, _⟩ => ⟨S8, .f32⟩
  | .hbm, ⟨9, _⟩ => ⟨S8x8, .f32⟩
  | .hbm, ⟨10, _⟩ => ⟨S8, .f32⟩
  | .hbm, ⟨11, _⟩ => ⟨S8x1, .f32⟩
  | .hbm, ⟨12, _⟩ => ⟨S1, .f32⟩
  | .hbm, ⟨13, _⟩ => ⟨S1x1, .f32⟩
  | .hbm, ⟨14, _⟩ => ⟨S1, .f32⟩
  | .hbm, ⟨15, _⟩ => ⟨S8x1, .f32⟩
  | .hbm, ⟨16, _⟩ => ⟨S1, .f32⟩
  | .hbm, ⟨17, _⟩ => ⟨S1x1, .f32⟩
  | .hbm, ⟨18, _⟩ => ⟨S1, .f32⟩
  | .hbm, ⟨19, _⟩ => ⟨S8192x1, .f32⟩
  | .hbm, ⟨20, _⟩ => ⟨S8192x1, .f32⟩
  | .hbm, ⟨21, _⟩ => ⟨S8192x2, .f32⟩
  | .hbm, ⟨22, _⟩ => ⟨S8192x2, .f32⟩
  | .hbm, ⟨23, _⟩ => ⟨S8192x8, .f32⟩
  | .hbm, ⟨24, _⟩ => ⟨S1x8, .f32⟩
  | .hbm, ⟨25, _⟩ => ⟨S8192x8, .f32⟩
  | .hbm, ⟨26, _⟩ => ⟨S8192x8, .f32⟩
  | .hbm, ⟨27, _⟩ => ⟨S_, .f32⟩
  | .hbm, ⟨28, _⟩ => ⟨S8192x8, .f32⟩
  | .hbm, ⟨29, _⟩ => ⟨S8192x8, .f32⟩
  | .hbm, ⟨30, _⟩ => ⟨S8192x8, .f32⟩
  | .hbm, ⟨31, _⟩ => ⟨S1x8, .f32⟩
  | .hbm, ⟨32, _⟩ => ⟨S8192x8, .f32⟩
  | .hbm, ⟨33, _⟩ => ⟨S8192x8, .f32⟩
  | .hbm, ⟨34, _⟩ => ⟨S_, .f32⟩
  | .hbm, ⟨35, _⟩ => ⟨S8192x8, .f32⟩
  | .hbm, ⟨36, _⟩ => ⟨S8192x8, .f32⟩
  | .hbm, ⟨37, _⟩ => ⟨S8192x8, .f32⟩
  | .hbm, ⟨38, _⟩ => ⟨S8192x8, .f32⟩
  | .hbm, ⟨39, _⟩ => ⟨S1x8, .f32⟩
  | .hbm, ⟨40, _⟩ => ⟨S8192x8, .f32⟩
  | .hbm, ⟨41, _⟩ => ⟨S8192x8, .f32⟩
  | .hbm, ⟨42, _⟩ => ⟨S_, .f32⟩
  | .hbm, ⟨43, _⟩ => ⟨S8192x8, .f32⟩
  | .hbm, ⟨44, _⟩ => ⟨S8192x8, .f32⟩
  | .hbm, ⟨45, _⟩ => ⟨S8192x8, .f32⟩
  | .hbm, ⟨46, _⟩ => ⟨S1x8, .f32⟩
  | .hbm, ⟨47, _⟩ => ⟨S8192x8, .f32⟩
  | .hbm, ⟨48, _⟩ => ⟨S8192x8, .f32⟩
  | .hbm, ⟨49, _⟩ => ⟨S_, .f32⟩
  | .hbm, ⟨50, _⟩ => ⟨S8192x8, .f32⟩
  | .hbm, ⟨51, _⟩ => ⟨S8192x8, .f32⟩
  | .hbm, ⟨52, _⟩ => ⟨S8192x8, .f32⟩
  | .hbm, ⟨53, _⟩ => ⟨S8192x1, .f32⟩
  | .hbm, ⟨54, _⟩ => ⟨S1x1, .f32⟩
  | .hbm, ⟨55, _⟩ => ⟨S8192x1, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S8192x1, .f32⟩
  | .hbm, ⟨61, _⟩ => ⟨S1x1, .f32⟩
  | .hbm, ⟨62, _⟩ => ⟨S8192x1, .f32⟩
  | .hbm, ⟨63, _⟩ => ⟨S8192x1, .f32⟩
  | .hbm, ⟨64, _⟩ => ⟨S8192, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S1, .f32⟩
  | .hbm, ⟨70, _⟩ => ⟨S8192, .f32⟩
  | .hbm, ⟨71, _⟩ => ⟨S8192, .f32⟩
  | .hbm, ⟨72, _⟩ => ⟨S8192, .f32⟩
  | .hbm, ⟨73, _⟩ => ⟨S_, .f32⟩
  | .hbm, ⟨74, _⟩ => ⟨S_, .f32⟩
  | .hbm, ⟨75, _⟩ => ⟨S1, .f32⟩
  | .hbm, ⟨76, _⟩ => ⟨S8192, .f32⟩
  | .hbm, ⟨77, _⟩ => ⟨S8192, .f32⟩
  | .hbm, ⟨78, _⟩ => ⟨S8192x8, .f32⟩
  | .hbm, ⟨79, _⟩ => ⟨S8192x1, .f32⟩
  | .hbm, ⟨80, _⟩ => ⟨S1x1, .f32⟩
  | .hbm, ⟨81, _⟩ => ⟨S8192x1, .f32⟩
  | .hbm, ⟨82, _⟩ => ⟨S8192x1, .f32⟩
  | .hbm, ⟨83, _⟩ => ⟨S_, .f32⟩
  | .hbm, ⟨84, _⟩ => ⟨S8192x1, .f32⟩
  | .hbm, ⟨85, _⟩ => ⟨S8192x1, .f32⟩
  | .hbm, ⟨86, _⟩ => ⟨S8192x1, .f32⟩
  | .hbm, ⟨87, _⟩ => ⟨S1x1, .f32⟩
  | .hbm, ⟨88, _⟩ => ⟨S8192x1, .f32⟩
  | .hbm, ⟨89, _⟩ => ⟨S8192x1, .f32⟩
  | .hbm, ⟨90, _⟩ => ⟨S8192, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S8192, .f32⟩
  | .hbm, ⟨96, _⟩ => ⟨S8192, .f32⟩
  | .hbm, ⟨97, _⟩ => ⟨S8192, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S8192, .f32⟩
  | .hbm, ⟨106, _⟩ => ⟨S8192, .f32⟩
  | .hbm, ⟨107, _⟩ => ⟨S8192, .f32⟩
  | .hbm, ⟨108, _⟩ => ⟨S8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_call0_cst : Ref sig .tc := ⟨.hbm, 27, rfl⟩
abbrev main_call0_v0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_call1_cst : Ref sig .tc := ⟨.hbm, 34, rfl⟩
abbrev main_call1_v0 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_call2_cst : Ref sig .tc := ⟨.hbm, 42, rfl⟩
abbrev main_call2_v0 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_call3_cst : Ref sig .tc := ⟨.hbm, 49, rfl⟩
abbrev main_call3_v0 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_call4_cst : Ref sig .tc := ⟨.hbm, 57, rfl⟩
abbrev main_call4_v0 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst : Ref sig .tc := ⟨.hbm, 65, rfl⟩
abbrev main_v36 : Ref sig .tc := ⟨.hbm, 66, rfl⟩
abbrev main_cst_0 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_1 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_call5_cst : Ref sig .tc := ⟨.hbm, 83, rfl⟩
abbrev main_call5_v0 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_2 : Ref sig .tc := ⟨.hbm, 91, rfl⟩
abbrev main_v57 : Ref sig .tc := ⟨.hbm, 92, rfl⟩
abbrev main_cst_3 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_4 : Ref sig .tc := ⟨.hbm, 98, rfl⟩
abbrev main_v62 : Ref sig .tc := ⟨.hbm, 99, rfl⟩
abbrev main_cst_5 : Ref sig .tc := ⟨.hbm, 100, rfl⟩
abbrev main_v63 : Ref sig .tc := ⟨.hbm, 101, rfl⟩
abbrev main_cst_6 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  concatenates_S8192x1_S8192x1_S8192x2_d1 : Shape.Concatenates [S8192x1, S8192x1] S8192x2 1
  bcast_S8_S1x8_1 : S8.BroadcastsInDim S1x8 (![1] : Fin 1 → Fin S1x8.rank)
  bcast_S1x8_S8192x8_0_1 : S1x8.BroadcastsInDim S8192x8 (![0, 1] : Fin 2 → Fin S8192x8.rank)
  bcast_S_S8192x8 : S_.BroadcastsInDim S8192x8 (![] : Fin 0 → Fin S8192x8.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  bcast_S_S8192x1 : S_.BroadcastsInDim S8192x1 (![] : Fin 0 → Fin S8192x1.rank)
  shapeCasts_S8192x1_S8192 : S8192x1.ShapeCasts S8192
  reducesTo_S8192_S_d0 : S8192.ReducesTo [0] S_
  h_S_ : 0 < S_.numel
  bcast_S_S1 : S_.BroadcastsInDim S1 (![] : Fin 0 → Fin S1.rank)
  bcast_S1_S8192_0 : S1.BroadcastsInDim S8192 (![0] : Fin 1 → Fin S8192.rank)
  bcast_S_S8192 : S_.BroadcastsInDim S8192 (![] : Fin 0 → Fin S8192.rank)
  dot_S8192x8192_S8192x2_S8192x2_1_0_0_1_n_n_wf : DotDims.WF S8192x8192 S8192x2 S8192x2 [1] [0] [0] [1] [] []
  dot_S8192x2_S2x8_S8192x8_1_0_0_1_n_n_wf : DotDims.WF S8192x2 S2x8 S8192x8 [1] [0] [0] [1] [] []
  dot_S8192x8_S8x8_S8192x8_1_0_0_1_n_n_wf : DotDims.WF S8192x8 S8x8 S8192x8 [1] [0] [0] [1] [] []
  dot_S8192x8192_S8192x8_S8192x8_1_0_0_1_n_n_wf : DotDims.WF S8192x8192 S8192x8 S8192x8 [1] [0] [0] [1] [] []
  dot_S8192x8_S8x1_S8192x1_1_0_0_1_n_n_wf : DotDims.WF S8192x8 S8x1 S8192x1 [1] [0] [0] [1] [] []
  dot_S8192x1_S1x1_S8192x1_1_0_0_1_n_n_wf : DotDims.WF S8192x1 S1x1 S8192x1 [1] [0] [0] [1] [] []

variable [Facts₀]

def dot_S8192x8192_S8192x2_S8192x2_1_0_0_1_n_n : DotDims S8192x8192 S8192x2 S8192x2 where
  lhsContracting := [1]
  rhsContracting := [0]
  lhsNonContracting := [0]
  rhsNonContracting := [1]
  lhsBatch := []
  rhsBatch := []
  wf := dot_S8192x8192_S8192x2_S8192x2_1_0_0_1_n_n_wf
def dot_S8192x2_S2x8_S8192x8_1_0_0_1_n_n : DotDims S8192x2 S2x8 S8192x8 where
  lhsContracting := [1]
  rhsContracting := [0]
  lhsNonContracting := [0]
  rhsNonContracting := [1]
  lhsBatch := []
  rhsBatch := []
  wf := dot_S8192x2_S2x8_S8192x8_1_0_0_1_n_n_wf
def dot_S8192x8_S8x8_S8192x8_1_0_0_1_n_n : DotDims S8192x8 S8x8 S8192x8 where
  lhsContracting := [1]
  rhsContracting := [0]
  lhsNonContracting := [0]
  rhsNonContracting := [1]
  lhsBatch := []
  rhsBatch := []
  wf := dot_S8192x8_S8x8_S8192x8_1_0_0_1_n_n_wf
def dot_S8192x8192_S8192x8_S8192x8_1_0_0_1_n_n : DotDims S8192x8192 S8192x8 S8192x8 where
  lhsContracting := [1]
  rhsContracting := [0]
  lhsNonContracting := [0]
  rhsNonContracting := [1]
  lhsBatch := []
  rhsBatch := []
  wf := dot_S8192x8192_S8192x8_S8192x8_1_0_0_1_n_n_wf
def dot_S8192x8_S8x1_S8192x1_1_0_0_1_n_n : DotDims S8192x8 S8x1 S8192x1 where
  lhsContracting := [1]
  rhsContracting := [0]
  lhsNonContracting := [0]
  rhsNonContracting := [1]
  lhsBatch := []
  rhsBatch := []
  wf := dot_S8192x8_S8x1_S8192x1_1_0_0_1_n_n_wf
def dot_S8192x1_S1x1_S8192x1_1_0_0_1_n_n : DotDims S8192x1 S1x1 S8192x1 where
  lhsContracting := [1]
  rhsContracting := [0]
  lhsNonContracting := [0]
  rhsNonContracting := [1]
  lhsBatch := []
  rhsBatch := []
  wf := dot_S8192x1_S1x1_S8192x1_1_0_0_1_n_n_wf

class Facts : Prop extends Facts₀ where

variable [Facts]
-- ==== Proof.Spec.lean ====
/- One graph-network layer as a function of whole arrays, on the extended reals.

   A layer aggregates the features X over the neighbours weighted by A (a matrix product), applies an affine map,
   clamps at zero, and applies a second affine map:  row r, column q of the result is
     (sum over j of  max ((sum over i of (sum over k of A[r,k] * X[k,i]) * W1[i,j]) + b1[j], 0) * W2[j,q])  +  b2[q].
   The hidden layers clamp this at zero once more. Sums are finite sums of extended reals, products and sums are the
   extended reals' own; nothing here needs the entries to be finite. -/
import Idealize.ShloMosaic.PureOps.Ideal
import Idealize.ShloMosaic.Lib.ValueIdx

noncomputable section

namespace Cert.Gin

open Idealize.ShloMosaic Idealize.ShloMosaic.ValueIdx
open scoped BigOperators

/-- The value of the zero word: what both programs clamp against. -/
abbrev zero32 : EReal := Ideal.ofBits .f32 0x00000000#32

/-- Entry (r, q) of one layer before the outer clamp. -/
def layerAt {N K I J Q : ℕ} (A : (⟨2, ![N, K]⟩ : Shape).Idx → EReal) (X : (⟨2, ![K, I]⟩ : Shape).Idx → EReal)
    (W1 : (⟨2, ![I, J]⟩ : Shape).Idx → EReal) (b1 : (⟨1, ![J]⟩ : Shape).Idx → EReal)
    (W2 : (⟨2, ![J, Q]⟩ : Shape).Idx → EReal) (b2 : (⟨1, ![Q]⟩ : Shape).Idx → EReal) (r : Fin N) (q : Fin Q) : EReal :=
  (∑ j : Fin J, max ((∑ i : Fin I, (∑ k : Fin K, A (ix2 r k) * X (ix2 k i)) * W1 (ix2 i j)) + b1 (ix1 j)) zero32 * W2 (ix2 j q))
    + b2 (ix1 q)

/-- A layer's entry depends on A only through row r: two matrices with equal rows give equal entries. -/
theorem layerAt_congr_row {N N' K I J Q : ℕ} (A : (⟨2, ![N, K]⟩ : Shape).Idx → EReal) (A' : (⟨2, ![N', K]⟩ : Shape).Idx → EReal)
    (X : (⟨2, ![K, I]⟩ : Shape).Idx → EReal) (W1 : (⟨2, ![I, J]⟩ : Shape).Idx → EReal) (b1 : (⟨1, ![J]⟩ : Shape).Idx → EReal)
    (W2 : (⟨2, ![J, Q]⟩ : Shape).Idx → EReal) (b2 : (⟨1, ![Q]⟩ : Shape).Idx → EReal) (r : Fin N) (r' : Fin N') (q : Fin Q)
    (h : ∀ k : Fin K, A (ix2 r k) = A' (ix2 r' k)) :
    layerAt A X W1 b1 W2 b2 r q = layerAt A' X W1 b1 W2 b2 r' q := by
  unfold layerAt
  simp only [h]

/-- The layer as a whole array (no outer clamp): the two output heads. -/
def layer {N K I J Q : ℕ} (A : (⟨2, ![N, K]⟩ : Shape).Idx → EReal) (X : (⟨2, ![K, I]⟩ : Shape).Idx → EReal)
    (W1 : (⟨2, ![I, J]⟩ : Shape).Idx → EReal) (b1 : (⟨1, ![J]⟩ : Shape).Idx → EReal)
    (W2 : (⟨2, ![J, Q]⟩ : Shape).Idx → EReal) (b2 : (⟨1, ![Q]⟩ : Shape).Idx → EReal) : (⟨2, ![N, Q]⟩ : Shape).Idx → EReal :=
  fun i => layerAt A X W1 b1 W2 b2 (i 0) (i 1)

/-- The layer clamped at zero, as a whole array: the hidden layers. -/
def reluLayer {N K I J Q : ℕ} (A : (⟨2, ![N, K]⟩ : Shape).Idx → EReal) (X : (⟨2, ![K, I]⟩ : Shape).Idx → EReal)
    (W1 : (⟨2, ![I, J]⟩ : Shape).Idx → EReal) (b1 : (⟨1, ![J]⟩ : Shape).Idx → EReal)
    (W2 : (⟨2, ![J, Q]⟩ : Shape).Idx → EReal) (b2 : (⟨1, ![Q]⟩ : Shape).Idx → EReal) : (⟨2, ![N, Q]⟩ : Shape).Idx → EReal :=
  fun i => max (layerAt A X W1 b1 W2 b2 (i 0) (i 1)) zero32

theorem layer_ix2 {N K I J Q : ℕ} (A : (⟨2, ![N, K]⟩ : Shape).Idx → EReal) (X : (⟨2, ![K, I]⟩ : Shape).Idx → EReal)
    (W1 : (⟨2, ![I, J]⟩ : Shape).Idx → EReal) (b1 : (⟨1, ![J]⟩ : Shape).Idx → EReal)
    (W2 : (⟨2, ![J, Q]⟩ : Shape).Idx → EReal) (b2 : (⟨1, ![Q]⟩ : Shape).Idx → EReal) (r : Fin N) (q : Fin Q) :
    layer A X W1 b1 W2 b2 (ix2 r q) = layerAt A X W1 b1 W2 b2 r q := rfl

theorem reluLayer_ix2 {N K I J Q : ℕ} (A : (⟨2, ![N, K]⟩ : Shape).Idx → EReal) (X : (⟨2, ![K, I]⟩ : Shape).Idx → EReal)
    (W1 : (⟨2, ![I, J]⟩ : Shape).Idx → EReal) (b1 : (⟨1, ![J]⟩ : Shape).Idx → EReal)
    (W2 : (⟨2, ![J, Q]⟩ : Shape).Idx → EReal) (b2 : (⟨1, ![Q]⟩ : Shape).Idx → EReal) (r : Fin N) (q : Fin Q) :
    reluLayer A X W1 b1 W2 b2 (ix2 r q) = max (layerAt A X W1 b1 W2 b2 r q) zero32 := rfl

end Cert.Gin

end
-- ==== Proof.LibDotPlain.lean ====
/- A matrix product read at one index, for dimension numbers with no batch axis and one contracted axis.

   Two arrangements: rows times columns (the left operand's second axis against the right operand's first), and
   the transposed-left product (both operands' first axes contracted: the left operand's columns index the result's
   rows). In both the contraction index is one coordinate, and the sum over it is a sum over that coordinate. The
   kernel's product into a zero accumulator and the host's product are that same sum. -/
import Idealize.ShloMosaic.PureOps.Ideal
import Idealize.ShloMosaic.PureOps.Ideal.Laws
import Idealize.ShloMosaic.Lib.ValueIdx

noncomputable section

namespace Cert.DotPlain

open Idealize.ShloMosaic Idealize.ShloMosaic.ValueIdx
open scoped BigOperators

/-! ## One contracted axis, no batch axis: the contraction shape and the operand coordinates -/

/-- A list that is a singleton has its one element at position 0. -/
theorem getElem_zero_of_eq_singleton {α : Type} {l : List α} {c : α} (h : l = [c]) (hp : 0 < l.length) : l[0] = c := by
  subst h; rfl

/-- With one contracted axis the contraction shape has one axis. -/
theorem contr_rank_one {sl sr so : Shape} (d : DotDims sl sr so) {c : Fin sl.rank} (hlc : d.lhsContracting = [c]) :
    d.contr.rank = 1 := by
  rw [d.rank_contr, hlc]; rfl

/-- That one axis has the extent of the left operand's contracted axis. -/
theorem contr_size_zero {sl sr so : Shape} (d : DotDims sl sr so) {c : Fin sl.rank} (hlc : d.lhsContracting = [c]) :
    d.contr.size ⟨0, by rw [contr_rank_one d hlc]; exact Nat.one_pos⟩ = sl.size c := by
  have hp : 0 < d.lhsContracting.length := by rw [hlc]; exact Nat.one_pos
  exact (d.size_contr 0 hp).trans (congrArg sl.size (getElem_zero_of_eq_singleton hlc hp))

/-- Moving along one index changes nothing but the position read. -/
private theorem val_congr {s : Shape} (j : s.Idx) (p q : Nat) (hp : p < s.rank) (hq : q < s.rank) (h : p = q) :
    (j ⟨p, hp⟩).val = (j ⟨q, hq⟩).val := by
  subst h; rfl

/-- No batch axis and one free axis on the left: on that axis the left operand reads the result's first coordinate. -/
theorem lhsIdx_val_nonContr {sl sr so : Shape} (d : DotDims sl sr so) (hlb : d.lhsBatch = [])
    {a : Fin sl.rank} (hln : d.lhsNonContracting = [a]) (j : so.Idx) (k : d.contr.Idx) (h0 : 0 < so.rank) :
    (d.lhsIdx j k a).val = (j ⟨0, h0⟩).val := by
  have hb : a ∉ d.lhsBatch := by rw [hlb]; exact List.not_mem_nil
  have hn : a ∈ d.lhsNonContracting := by rw [hln]; exact List.mem_singleton.mpr rfl
  unfold DotDims.lhsIdx
  rw [dif_neg hb, dif_pos hn]
  simp only [Fin.val_cast]
  exact val_congr j _ _ _ _ (by simp [hlb, hln])

/-- No batch axis and one free axis on each side: on its free axis the right operand reads the result's second
    coordinate (the result lists the left operand's free axis first). -/
theorem rhsIdx_val_nonContr {sl sr so : Shape} (d : DotDims sl sr so) (hlb : d.lhsBatch = []) (hrb : d.rhsBatch = [])
    {al : Fin sl.rank} (hln : d.lhsNonContracting = [al]) {a : Fin sr.rank} (hrn : d.rhsNonContracting = [a])
    (j : so.Idx) (k : d.contr.Idx) (h1 : 1 < so.rank) :
    (d.rhsIdx j k a).val = (j ⟨1, h1⟩).val := by
  have hb : a ∉ d.rhsBatch := by rw [hrb]; exact List.not_mem_nil
  have hn : a ∈ d.rhsNonContracting := by rw [hrn]; exact List.mem_singleton.mpr rfl
  unfold DotDims.rhsIdx
  rw [dif_neg hb, dif_pos hn]
  simp only [Fin.val_cast]
  exact val_congr j _ _ _ _ (by simp [hlb, hln, hrn])

/-! ## The contraction sum as a sum over the contracted coordinate -/

/-- Rows times columns: the contraction sum at (a, b) is the sum over k of l (a, k) · r (k, b). -/
theorem sum_rows_cols {M K N : Nat} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (l : (⟨2, ![M, K]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 a k) * r (ix2 k b) := by
  have hr : d.contr.rank = 1 := contr_rank_one d hlc
  have hs : d.contr.size ⟨0, by omega⟩ = K := contr_size_zero d hlc
  -- re-index the sum by the one contraction coordinate, then identify each operand's index axis by axis
  rw [← Equiv.sum_comp (contrEquiv1 d K hr hs).symm]
  refine Finset.sum_congr rfl fun k _ => ?_
  have hl : d.lhsIdx (ix2 a b) ((contrEquiv1 d K hr hs).symm k) = ix2 a k := by
    funext ax
    match ax with
    | ⟨0, _⟩ => exact Fin.ext (lhsIdx_val_nonContr d hlb hln _ _ Nat.zero_lt_two)
    | ⟨1, _⟩ => exact Fin.ext ((d.lhsIdx_val_of_single hlc _ _).trans (contrEquiv1_symm_val d K hr hs k))
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-- Transposed-left product: the contraction sum at (a, b) is the sum over k of l (k, a) · r (k, b). -/
theorem sum_cols_cols {M K N : Nat} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (l : (⟨2, ![K, M]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 k a) * r (ix2 k b) := by
  have hr : d.contr.rank = 1 := contr_rank_one d hlc
  have hs : d.contr.size ⟨0, by omega⟩ = K := contr_size_zero d hlc
  rw [← Equiv.sum_comp (contrEquiv1 d K hr hs).symm]
  refine Finset.sum_congr rfl fun k _ => ?_
  -- the left operand's first axis is the contracted one, its second axis carries the result's row
  have hl : d.lhsIdx (ix2 a b) ((contrEquiv1 d K hr hs).symm k) = ix2 k a := by
    funext ax
    match ax with
    | ⟨0, _⟩ => exact Fin.ext ((d.lhsIdx_val_of_single hlc _ _).trans (contrEquiv1_symm_val d K hr hs k))
    | ⟨1, _⟩ => exact Fin.ext (lhsIdx_val_nonContr d hlb hln _ _ Nat.zero_lt_two)
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-! ## The two products at an index -/

/-- The host's product, rows times columns, at an index. -/
theorem dotGeneral_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (sum_rows_cols d hlb hrb hlc hrc hln hrn l r a b)

/-- The kernel's product into the zero accumulator, rows times columns, at an index. -/
theorem matmul_zero_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (sum_rows_cols d hlb hrb hlc hrc hln hrn l r a b)

/-- The kernel's transposed-left product into the zero accumulator, at an index. -/
theorem matmul_zero_cols_cols {M K N : Nat} {φ₁ φ₂ : FTy} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (prec : Option ContractPrecision)
    (l : FVec Ideal ⟨2, ![K, M]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 k a) * r (ix2 k b) :=
  (Ideal.matmul_constant_zero_apply d prec l r (ix2 a b)).trans (sum_cols_cols d hlb hrb hlc hrc hln hrn l r a b)

end Cert.DotPlain

end
-- ==== Proof.KernelPay.lean ====
/- Each region's stored block, read at an index, as the layer's formula over the blocks the body loads.

   At the exact reals a change of float format is the identity, a matrix product into a zero accumulator is the plain
   sum over the contracted index, a row vector broadcast down the rows reads its own entry, and the clamp is max with
   the zero word's value: so entry (p, q) of what a body stores is the layer's entry (p, q) over its loaded blocks. -/
import proofs.«101973_j47141561041408_1_alg».proof.Proof.Gen.KernelIdeal.Skeleton
import proofs.«101973_j47141561041408_1_alg».proof.Proof.Spec
import proofs.«101973_j47141561041408_1_alg».proof.Proof.LibDotPlain
import Idealize.ShloMosaic.Lib.ValueLayout
import Idealize.ShloMosaic.Lib.Pipeline.Value

noncomputable section

namespace Cert.KernelIdeal.Pay

open Cert.KernelIdeal Cert.KernelIdeal.Gen Cert.Gin Idealize.ShloMosaic Idealize.ShloMosaic.ValueIdx

open scoped BigOperators

/-- A row vector reshaped to a single row and repeated down the rows reads, at (p, q), its own entry q. -/
theorem rowVector_apply {a b : ℕ} (v : FVec Ideal ⟨1, ![b]⟩ .f32)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ v hc) hb (ix2 p q) = v (ix1 q) :=
  (broadcastTo_1b_ab_apply _ hb p q).trans (shapeCast_a_1a_apply v hc 0 q)

/-- Dimension numbers of a plain rows-times-columns product: no batch axis, the left operand's second axis
    contracted against the right operand's first. -/
structure RowsCols {M K N : ℕ} (d : DotDims ⟨2, ![M, K]⟩ ⟨2, ![K, N]⟩ ⟨2, ![M, N]⟩) : Prop where
  lb : d.lhsBatch = []
  rb : d.rhsBatch = []
  lc : d.lhsContracting = [1]
  rc : d.rhsContracting = [0]
  ln : d.lhsNonContracting = [0]
  rn : d.rhsNonContracting = [1]

/-- A product into the zero accumulator at (p, q): the sum over the contracted index. -/
theorem product_apply {M K N : ℕ} {φ₁ φ₂ : FTy} {d : DotDims ⟨2, ![M, K]⟩ ⟨2, ![K, N]⟩ ⟨2, ![M, N]⟩} (hd : RowsCols d)
    (l : FVec Ideal ⟨2, ![M, K]⟩ φ₁) (r : FVec Ideal ⟨2, ![K, N]⟩ φ₂) (p : Fin M) (q : Fin N) :
    matmul d none l r (constant ⟨2, ![M, N]⟩ .f32 0x00000000#32) (ix2 p q) = ∑ k : Fin K, l (ix2 p k) * r (ix2 k q) :=
  Cert.DotPlain.matmul_zero_rows_cols d hd.lb hd.rb hd.lc hd.rc hd.ln hd.rn none l r p q

/-- An affine stage at (p, q): the product's sum plus the row vector's entry q. -/
theorem affine_apply {M K N : ℕ} {φ₁ φ₂ : FTy} {d : DotDims ⟨2, ![M, K]⟩ ⟨2, ![K, N]⟩ ⟨2, ![M, N]⟩} (hd : RowsCols d)
    (l : FVec Ideal ⟨2, ![M, K]⟩ φ₁) (r : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![M, N]⟩)
    (p : Fin M) (q : Fin N) :
    addf (matmul d none l r (constant ⟨2, ![M, N]⟩ .f32 0x00000000#32))
        (broadcastTo ⟨2, ![M, N]⟩ (shapeCast ⟨2, ![1, N]⟩ b hc) hb) (ix2 p q)
      = (∑ k : Fin K, l (ix2 p k) * r (ix2 k q)) + b (ix1 q) := by
  rw [addf_apply, product_apply hd, rowVector_apply]

/-- Two affine stages with a clamp at zero between them, the operands passed through changes of format: entry (p, q)
    is the layer's entry. -/
theorem stages_apply {M K I J Q : ℕ}
    {dX : DotDims ⟨2, ![M, K]⟩ ⟨2, ![K, I]⟩ ⟨2, ![M, I]⟩} (hX : RowsCols dX)
    {d1 : DotDims ⟨2, ![M, I]⟩ ⟨2, ![I, J]⟩ ⟨2, ![M, J]⟩} (h1 : RowsCols d1)
    {d2 : DotDims ⟨2, ![M, J]⟩ ⟨2, ![J, Q]⟩ ⟨2, ![M, Q]⟩} (h2 : RowsCols d2)
    (A : FVec Ideal ⟨2, ![M, K]⟩ .bf16) (X : FVec Ideal ⟨2, ![K, I]⟩ .bf16)
    (W1 : FVec Ideal ⟨2, ![I, J]⟩ .f32) (b1 : FVec Ideal ⟨1, ![J]⟩ .f32)
    (W2 : FVec Ideal ⟨2, ![J, Q]⟩ .f32) (b2 : FVec Ideal ⟨1, ![Q]⟩ .f32)
    (hc1 : (⟨1, ![J]⟩ : Shape).ShapeCasts ⟨2, ![1, J]⟩) (hb1 : (⟨2, ![1, J]⟩ : Shape).Broadcasts ⟨2, ![M, J]⟩)
    (hc2 : (⟨1, ![Q]⟩ : Shape).ShapeCasts ⟨2, ![1, Q]⟩) (hb2 : (⟨2, ![1, Q]⟩ : Shape).Broadcasts ⟨2, ![M, Q]⟩)
    (p : Fin M) (q : Fin Q) :
    addf (matmul d2 none
            (truncf .bf16
              (maximumf
                (addf (matmul d1 none
                        (truncf .bf16 (matmul dX none A X (constant ⟨2, ![M, I]⟩ .f32 0x00000000#32)) bitsLt_bf16_f32)
                        (truncf .bf16 W1 bitsLt_bf16_f32) (constant ⟨2, ![M, J]⟩ .f32 0x00000000#32))
                      (broadcastTo ⟨2, ![M, J]⟩ (shapeCast ⟨2, ![1, J]⟩ b1 hc1) hb1))
                (broadcast ⟨2, ![M, J]⟩ (FloatOps.ofBits .f32 0x00000000#32)))
              bitsLt_bf16_f32)
            (truncf .bf16 W2 bitsLt_bf16_f32) (constant ⟨2, ![M, Q]⟩ .f32 0x00000000#32))
        (broadcastTo ⟨2, ![M, Q]⟩ (shapeCast ⟨2, ![1, Q]⟩ b2 hc2) hb2) (ix2 p q)
      = layerAt A X W1 b1 W2 b2 p q := by
  unfold layerAt
  -- the second stage: a sum over j plus b2's entry; compare the sums term by term
  rw [affine_apply h2]
  refine congrArg (· + b2 (ix1 q)) (Finset.sum_congr rfl fun j _ => ?_)
  -- term j: the clamped first stage at (p, j) times W2 (j, q); the first stage is a sum over i plus b1's entry
  rw [truncf_apply, truncf_apply, maximumf_apply, broadcast_apply, affine_apply h1]
  refine congrArg (fun t => max (t + b1 (ix1 j)) zero32 * W2 (ix2 j q)) (Finset.sum_congr rfl fun i _ => ?_)
  -- term i: the aggregation A · X at (p, i), a sum over k, times W1 (i, j)
  rw [truncf_apply, truncf_apply, product_apply hX]

/-- Region 0 only changes the format: the stored block is the loaded one. -/
theorem cast_apply (v0 : Vec Ideal S256x8192 .f32) (i : S256x8192.Idx) : k0_pay1 (F := Ideal) v0 i = v0 i := by
  rfl

/-- Region 1 (features of width 2 into width 8, clamped). -/
theorem hidden0_apply (v0 : Vec Ideal S1024x8192 .bf16) (v2 : Vec Ideal S8192x2 .bf16) (v5 : Vec Ideal S2x8 .f32) (v7 : Vec Ideal S8 .f32) (v15 : Vec Ideal S8x8 .f32) (v17 : Vec Ideal S8 .f32) (p : Fin 1024) (q : Fin 8) :
    k1_pay1 (F := Ideal) v0 v2 v5 v7 v15 v17 (ix2 p q) = max (layerAt v0 v2 v5 v7 v15 v17 p q) zero32 := by
  -- the outer change of format and clamp read index by index; the two identity reshapes drop
  unfold k1_pay1
  rw [truncf_apply, maximumf_apply, broadcast_apply, shapeCast_self, shapeCast_self]
  exact congrArg (max · zero32)
    (stages_apply (dX := dot_S1024x8192_S8192x2_S1024x2_1_0_0_1_n_n) ⟨rfl, rfl, rfl, rfl, rfl, rfl⟩
      (d1 := dot_S1024x2_S2x8_S1024x8_1_0_0_1_n_n) ⟨rfl, rfl, rfl, rfl, rfl, rfl⟩
      (d2 := dot_S1024x8_S8x8_S1024x8_1_0_0_1_n_n) ⟨rfl, rfl, rfl, rfl, rfl, rfl⟩ v0 v2 v5 v7 v15 v17 _ _ _ _ p q)

/-- Region 2 (width 8 into width 8, clamped). -/
theorem hidden1_apply (v0 : Vec Ideal S1024x8192 .bf16) (v2 : Vec Ideal S8192x8 .bf16) (v5 : Vec Ideal S8x8 .f32) (v7 : Vec Ideal S8 .f32) (v15 : Vec Ideal S8x8 .f32) (v17 : Vec Ideal S8 .f32) (p : Fin 1024) (q : Fin 8) :
    k2_pay1 (F := Ideal) v0 v2 v5 v7 v15 v17 (ix2 p q) = max (layerAt v0 v2 v5 v7 v15 v17 p q) zero32 := by
  -- the outer change of format and clamp read index by index; the two identity reshapes drop
  unfold k2_pay1
  rw [truncf_apply, maximumf_apply, broadcast_apply, shapeCast_self, shapeCast_self]
  exact congrArg (max · zero32)
    (stages_apply (dX := dot_S1024x8192_S8192x8_S1024x8_1_0_0_1_n_n) ⟨rfl, rfl, rfl, rfl, rfl, rfl⟩
      (d1 := dot_S1024x8_S8x8_S1024x8_1_0_0_1_n_n) ⟨rfl, rfl, rfl, rfl, rfl, rfl⟩
      (d2 := dot_S1024x8_S8x8_S1024x8_1_0_0_1_n_n) ⟨rfl, rfl, rfl, rfl, rfl, rfl⟩ v0 v2 v5 v7 v15 v17 _ _ _ _ p q)

/-- Region 3 (the policy head: width 8 into width 1, not clamped). -/
theorem policy_apply (v0 : Vec Ideal S1024x8192 .bf16) (v2 : Vec Ideal S8192x8 .bf16) (v5 : Vec Ideal S8x1 .f32) (v7 : Vec Ideal S1 .f32) (v15 : Vec Ideal S1x1 .f32) (v17 : Vec Ideal S1 .f32) (p : Fin 1024) (q : Fin 1) :
    k3_pay1 (F := Ideal) v0 v2 v5 v7 v15 v17 (ix2 p q) = layerAt v0 v2 v5 v7 v15 v17 p q := by
  -- the two identity reshapes drop; what is left is the two stages
  unfold k3_pay1
  rw [shapeCast_self, shapeCast_self]
  exact stages_apply (dX := dot_S1024x8192_S8192x8_S1024x8_1_0_0_1_n_n) ⟨rfl, rfl, rfl, rfl, rfl, rfl⟩
    (d1 := dot_S1024x8_S8x1_S1024x1_1_0_0_1_n_n) ⟨rfl, rfl, rfl, rfl, rfl, rfl⟩
    (d2 := dot_S1024x1_S1x1_S1024x1_1_0_0_1_n_n) ⟨rfl, rfl, rfl, rfl, rfl, rfl⟩ v0 v2 v5 v7 v15 v17 _ _ _ _ p q

/-- Region 4 (the value head: width 8 into width 1, not clamped). -/
theorem value_apply (v0 : Vec Ideal S1024x8192 .bf16) (v2 : Vec Ideal S8192x8 .bf16) (v5 : Vec Ideal S8x1 .f32) (v7 : Vec Ideal S1 .f32) (v15 : Vec Ideal S1x1 .f32) (v17 : Vec Ideal S1 .f32) (p : Fin 1024) (q : Fin 1) :
    k4_pay1 (F := Ideal) v0 v2 v5 v7 v15 v17 (ix2 p q) = layerAt v0 v2 v5 v7 v15 v17 p q := by
  -- the two identity reshapes drop; what is left is the two stages
  unfold k4_pay1
  rw [shapeCast_self, shapeCast_self]
  exact stages_apply (dX := dot_S1024x8192_S8192x8_S1024x8_1_0_0_1_n_n) ⟨rfl, rfl, rfl, rfl, rfl, rfl⟩
    (d1 := dot_S1024x8_S8x1_S1024x1_1_0_0_1_n_n) ⟨rfl, rfl, rfl, rfl, rfl, rfl⟩
    (d2 := dot_S1024x1_S1x1_S1024x1_1_0_0_1_n_n) ⟨rfl, rfl, rfl, rfl, rfl, rfl⟩ v0 v2 v5 v7 v15 v17 _ _ _ _ p q

end Cert.KernelIdeal.Pay

end
-- ==== Proof.KernelRegions.lean ====
/- What each region leaves in its output array, as one function of the arrays the region finds at its entry.

   A region's grid cuts the rows into blocks; point t loads rows [B t, B t + B) of the adjacency array and the small
   operands whole, and writes back rows [B t, B t + B) of the result. The blocks tile the output array, and entry
   (B t + p, q) of the layer depends on the adjacency array only through its row B t + p, so the array the region
   leaves is the layer of the whole arrays. -/
import proofs.«101973_j47141561041408_1_alg».proof.Proof.Gen.KernelIdeal.Frame
import proofs.«101973_j47141561041408_1_alg».proof.Proof.KernelPay
import Idealize.ShloMosaic.Lib.Pipeline.Value
import Idealize.ShloMosaic.Lib.ValueIdx

set_option maxRecDepth 16384

noncomputable section

namespace Cert.KernelIdeal.Regions

open Cert.KernelIdeal Cert.KernelIdeal.Gen Cert.Gin Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## Zero offsets

A body loads and stores its whole staging blocks: through the rectangle at offsets zero, spelt as a literal vector. -/

theorem zero_offsets₂ : (![0, 0] : Fin 2 → Nat) = fun _ => 0 := funext fun a => by fin_cases a <;> rfl
theorem zero_offsets₁ : (![0] : Fin 1 → Nat) = fun _ => 0 := funext fun a => by fin_cases a; rfl

/-! ## Region 0: the change of format

Point t of 32 loads rows [256 t, 256 t + 256) of the adjacency array and writes the same rows of the result; at the
exact reals the narrower format holds the same value, so the result array is the adjacency array. -/

/-- The input's and the output's block indices agree at every point, on both axes. -/
theorem cast_same_block : ∀ t : Fin cfg0.N, win0_0.index t (0 : Fin 2) = win0_1.index t (0 : Fin 2)
    ∧ win0_0.index t (1 : Fin 2) = win0_1.index t (1 : Fin 2) :=
  (by decide +kernel : ∀ t : Fin grid0.N, _)

/-- The output's block at point t starts at row block t and column block 0. -/
theorem cast_rows : ∀ t : Fin cfg0.N, win0_1.index t (0 : Fin 2) = t.val ∧ win0_1.index t (1 : Fin 2) = 0 :=
  (by decide +kernel : ∀ t : Fin grid0.N, _)

/-- What point t writes back is block t of the adjacency array: the stored block is the loaded one entry for entry,
    and the two blocks sit at the same place in their arrays. -/
theorem cast_flushed (c : Dev nD) (t : Fin cfg0.N) :
    (dat0 V c).flushed 1 t = ((cfg0.win 1).blk t).view.read (Elt Ideal) (V c main_arg0) := by
  show (cfg0.win 1).cut (grid0.coords t) ((dat0 V c).after 1 t) = _
  rw [after0_1]
  unfold out0_1
  rw [View.canon_unit_zero zero_offsets₂]
  simp only [View.ld_unit_zero (S := S256x8192) zero_offsets₂]
  funext j
  refine (Pay.cast_apply _ _).trans ?_
  obtain ⟨e0, e1⟩ := cast_same_block t
  show V c main_arg0 (((cfg0.win 0).blk t).view.emb j) = V c main_arg0 (((cfg0.win 1).blk t).view.emb j)
  have h : ((cfg0.win 0).blk t).view.emb j = ((cfg0.win 1).blk t).view.emb j := by
    funext a; apply Fin.ext
    match a with
    | ⟨0, _⟩ => show win0_0.index t (0 : Fin 2) * 256 + 1 * (j 0).val = win0_1.index t (0 : Fin 2) * 256 + 1 * (j 0).val; rw [e0]
    | ⟨1, _⟩ => show win0_0.index t (1 : Fin 2) * 8192 + 1 * (j 1).val = win0_1.index t (1 : Fin 2) * 8192 + 1 * (j 1).val; rw [e1]
  exact congrArg (V c main_arg0) h

/-- An index of the result is in point t's block iff each coordinate is in the block's range on its axis. -/
theorem cast_mem_blk (t : Fin cfg0.N) (i : S8192x8192.Idx) :
    i ∈ ((cfg0.win 1).blk t).view.set ↔ ∀ a : Fin 2, win0_1.index t a * S256x8192.size a ≤ (i a).val ∧ (i a).val < win0_1.index t a * S256x8192.size a + S256x8192.size a := by
  show i ∈ ((View.whole main_v0).slice (win0_1.rect t)).set ↔ _
  rw [View.set_slice_whole, Rect.mem_set_unit]
  exact Iff.rfl

/-- Region 0: the adjacency array in the narrower format, entry for entry the array itself. Row r lies in the block
    of point r / 256. -/
theorem arr0 (c : Dev nD) : (dat0 V c).arrAt 1 cfg0.N = V c main_arg0 :=
  (dat0 V c).arrAt_eq_of_cover 1 (V c main_arg0) (fun t _ => cast_flushed V c t) fun i => by
    have hi0 : (i 0).val < 8192 := (i 0).isLt
    have hi1 : (i 1).val < 8192 := (i 1).isLt
    have ht : (i 0).val / 256 < cfg0.N := by show _ < 32; omega
    obtain ⟨r0, r1⟩ := cast_rows ⟨(i 0).val / 256, ht⟩
    refine ⟨⟨(i 0).val / 256, ht⟩, flush0_1 _, ?_⟩
    rw [cast_mem_blk]
    intro a
    match a with
    | ⟨0, _⟩ =>
      show win0_1.index ⟨(i 0).val / 256, ht⟩ (0 : Fin 2) * 256 ≤ (i 0).val ∧ (i 0).val < win0_1.index ⟨(i 0).val / 256, ht⟩ (0 : Fin 2) * 256 + 256
      rw [r0]; show (i 0).val / 256 * 256 ≤ (i 0).val ∧ (i 0).val < (i 0).val / 256 * 256 + 256; omega
    | ⟨1, _⟩ =>
      show win0_1.index ⟨(i 0).val / 256, ht⟩ (1 : Fin 2) * 8192 ≤ (i 1).val ∧ (i 1).val < win0_1.index ⟨(i 0).val / 256, ht⟩ (1 : Fin 2) * 8192 + 8192
      rw [r1]; omega

/-! ## Region 1: the first hidden layer (features of width 2 into width 8, clamped)

Point t of 8 loads rows [1024 t, 1024 t + 1024) of the adjacency array and the features, weights and biases whole,
and writes rows [1024 t, 1024 t + 1024) of the result. -/

/-- The block indices at point t: the adjacency block and the output block start at row block t, every small operand's
    block is the array itself (block index 0 on every axis). -/
theorem hidden0_blocks : ∀ t : Fin cfg1.N,
    (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ win1_3.index t (0 : Fin 1) = 0
    ∧ (win1_4.index t (0 : Fin 2) = 0 ∧ win1_4.index t (1 : Fin 2) = 0)
    ∧ win1_5.index t (0 : Fin 1) = 0
    ∧ (win1_6.index t (0 : Fin 2) = t.val ∧ win1_6.index t (1 : Fin 2) = 0) :=
  (by decide +kernel : ∀ t : Fin grid1.N, _)

/-- The features' block is the features array. -/
theorem hidden0_features (c : Dev nD) (t : Fin cfg1.N) : iblk1 V c 1 t = V c main_v4 := by
  obtain ⟨-, ⟨e0, e1⟩, -⟩ := hidden0_blocks t
  funext x
  show V c main_v4 (((cfg1.win 1).blk t).view.emb x) = V c main_v4 x
  congr 1
  funext a; apply Fin.ext
  match a with
  | ⟨0, _⟩ => show win1_1.index t (0 : Fin 2) * 8192 + 1 * (x 0).val = (x 0).val; rw [e0]; omega
  | ⟨1, _⟩ => show win1_1.index t (1 : Fin 2) * 2 + 1 * (x 1).val = (x 1).val; rw [e1]; omega

/-- The first weights' block is the weight matrix. -/
theorem hidden0_w1 (c : Dev nD) (t : Fin cfg1.N) : iblk1 V c 2 t = V c main_arg3 := by
  obtain ⟨-, -, ⟨e0, e1⟩, -⟩ := hidden0_blocks t
  funext x
  show V c main_arg3 (((cfg1.win 2).blk t).view.emb x) = V c main_arg3 x
  congr 1
  funext a; apply Fin.ext
  match a with
  | ⟨0, _⟩ => show win1_2.index t (0 : Fin 2) * 2 + 1 * (x 0).val = (x 0).val; rw [e0]; omega
  | ⟨1, _⟩ => show win1_2.index t (1 : Fin 2) * 8 + 1 * (x 1).val = (x 1).val; rw [e1]; omega

/-- The first bias's block is the bias vector. -/
theorem hidden0_b1 (c : Dev nD) (t : Fin cfg1.N) : iblk1 V c 3 t = V c main_arg4 := by
  obtain ⟨-, -, -, e0, -⟩ := hidden0_blocks t
  funext x
  show V c main_arg4 (((cfg1.win 3).blk t).view.emb x) = V c main_arg4 x
  congr 1
  funext a; apply Fin.ext
  match a with
  | ⟨0, _⟩ => show win1_3.index t (0 : Fin 1) * 8 + 1 * (x 0).val = (x 0).val; rw [e0]; omega

/-- The second weights' block is the weight matrix. -/
theorem hidden0_w2 (c : Dev nD) (t : Fin cfg1.N) : iblk1 V c 4 t = V c main_arg5 := by
  obtain ⟨-, -, -, -, ⟨e0, e1⟩, -⟩ := hidden0_blocks t
  funext x
  show V c main_arg5 (((cfg1.win 4).blk t).view.emb x) = V c main_arg5 x
  congr 1
  funext a; apply Fin.ext
  match a with
  | ⟨0, _⟩ => show win1_4.index t (0 : Fin 2) * 8 + 1 * (x 0).val = (x 0).val; rw [e0]; omega
  | ⟨1, _⟩ => show win1_4.index t (1 : Fin 2) * 8 + 1 * (x 1).val = (x 1).val; rw [e1]; omega

/-- The second bias's block is the bias vector. -/
theorem hidden0_b2 (c : Dev nD) (t : Fin cfg1.N) : iblk1 V c 5 t = V c main_arg6 := by
  obtain ⟨-, -, -, -, -, e0, -⟩ := hidden0_blocks t
  funext x
  show V c main_arg6 (((cfg1.win 5).blk t).view.emb x) = V c main_arg6 x
  congr 1
  funext a; apply Fin.ext
  match a with
  | ⟨0, _⟩ => show win1_5.index t (0 : Fin 1) * 8 + 1 * (x 0).val = (x 0).val; rw [e0]; omega

/-- Row p of the adjacency block at point t is row 1024 t + p of the adjacency array. -/
theorem hidden0_adj_row (c : Dev nD) (t : Fin cfg1.N) (p : Fin 1024) (k : Fin 8192) (h : 1024 * t.val + p.val < 8192) :
    iblk1 V c 0 t (ix2 p k) = V c main_v0 (ix2 ⟨1024 * t.val + p.val, h⟩ k) := by
  obtain ⟨⟨e0, e1⟩, -⟩ := hidden0_blocks t
  show V c main_v0 (((cfg1.win 0).blk t).view.emb (ix2 p k)) = V c main_v0 (ix2 ⟨1024 * t.val + p.val, h⟩ k)
  congr 1
  funext a; apply Fin.ext
  match a with
  | ⟨0, _⟩ => show win1_0.index t (0 : Fin 2) * 1024 + 1 * p.val = 1024 * t.val + p.val; rw [e0]; omega
  | ⟨1, _⟩ => show win1_0.index t (1 : Fin 2) * 8192 + 1 * k.val = k.val; rw [e1]; omega

/-- Entry (p, q) of the clamped layer over the adjacency block is entry (1024 t + p, q) of the clamped layer over the
    adjacency array: the layer reads the adjacency matrix through that one row. -/
theorem hidden0_point (c : Dev nD) (t : Fin cfg1.N) (p : Fin 1024) (q : Fin 8) (hrow : 1024 * t.val + p.val < 8192) :
    max (layerAt (iblk1 V c 0 t) (V c main_v4) (V c main_arg3) (V c main_arg4) (V c main_arg5) (V c main_arg6) p q) zero32
      = reluLayer (V c main_v0) (V c main_v4) (V c main_arg3) (V c main_arg4) (V c main_arg5) (V c main_arg6)
          (ix2 ⟨1024 * t.val + p.val, hrow⟩ q) := by
  rw [reluLayer_ix2]
  exact congrArg (fun x => max x zero32)
    (layerAt_congr_row _ _ _ _ _ _ _ p ⟨_, hrow⟩ q fun k => hidden0_adj_row V c t p k hrow)

/-- What point t writes back is block t of the clamped layer of the whole arrays. -/
theorem hidden0_flushed (c : Dev nD) (t : Fin cfg1.N) :
    (dat1 V c).flushed 6 t = ((cfg1.win 6).blk t).view.read (Elt Ideal)
      (reluLayer (V c main_v0) (V c main_v4) (V c main_arg3) (V c main_arg4) (V c main_arg5) (V c main_arg6)) := by
  show (cfg1.win 6).cut (grid1.coords t) ((dat1 V c).after 6 t) = _
  rw [after1_6]
  unfold out1_6
  rw [View.canon_unit_zero zero_offsets₂]
  simp only [View.ld_unit_zero (S := S1024x8192) zero_offsets₂, View.ld_unit_zero (S := S8192x2) zero_offsets₂,
    View.ld_unit_zero (S := S2x8) zero_offsets₂, View.ld_unit_zero (S := S8x8) zero_offsets₂,
    View.ld_unit_zero (S := S8) zero_offsets₁]
  rw [hidden0_features, hidden0_w1, hidden0_b1, hidden0_w2, hidden0_b2]
  obtain ⟨-, -, -, -, -, -, r0, r1⟩ := hidden0_blocks t
  funext j
  obtain ⟨p, q, rfl⟩ : ∃ (p : Fin 1024) (q : Fin 8), j = ix2 p q := ⟨j 0, j 1, eq_ix2 j⟩
  refine (Pay.hidden0_apply _ _ _ _ _ _ p q).trans ?_
  have hrow : 1024 * t.val + p.val < 8192 := by
    have ht : t.val < 8 := t.isLt
    have hp := p.isLt
    omega
  have hemb : ((cfg1.win 6).blk t).view.emb (ix2 p q) = ix2 ⟨1024 * t.val + p.val, hrow⟩ q := by
    funext a; apply Fin.ext
    match a with
    | ⟨0, _⟩ => show win1_6.index t (0 : Fin 2) * 1024 + 1 * p.val = 1024 * t.val + p.val; rw [r0]; omega
    | ⟨1, _⟩ => show win1_6.index t (1 : Fin 2) * 8 + 1 * q.val = q.val; rw [r1]; omega
  refine (hidden0_point V c t p q hrow).trans ?_
  exact (congrArg (reluLayer (V c main_v0) (V c main_v4) (V c main_arg3) (V c main_arg4) (V c main_arg5) (V c main_arg6)) hemb).symm

/-- An index of the result is in point t's block iff each coordinate is in the block's range on its axis. -/
theorem hidden0_mem_blk (t : Fin cfg1.N) (i : S8192x8.Idx) :
    i ∈ ((cfg1.win 6).blk t).view.set ↔ ∀ a : Fin 2, win1_6.index t a * S1024x8.size a ≤ (i a).val ∧ (i a).val < win1_6.index t a * S1024x8.size a + S1024x8.size a := by
  show i ∈ ((View.whole main_v5).slice (win1_6.rect t)).set ↔ _
  rw [View.set_slice_whole, Rect.mem_set_unit]
  exact Iff.rfl

/-- Region 1: the clamped layer of the adjacency array, the features and the first layer's weights and biases. Row r
    lies in the block of point r / 1024. -/
theorem arr1 (c : Dev nD) :
    (dat1 V c).arrAt 6 cfg1.N = reluLayer (V c main_v0) (V c main_v4) (V c main_arg3) (V c main_arg4) (V c main_arg5) (V c main_arg6) :=
  (dat1 V c).arrAt_eq_of_cover 6 _ (fun t _ => hidden0_flushed V c t) fun i => by
    have hi0 : (i 0).val < 8192 := (i 0).isLt
    have hi1 : (i 1).val < 8 := (i 1).isLt
    have ht : (i 0).val / 1024 < cfg1.N := by show _ < 8; omega
    obtain ⟨-, -, -, -, -, -, r0, r1⟩ := hidden0_blocks ⟨(i 0).val / 1024, ht⟩
    refine ⟨⟨(i 0).val / 1024, ht⟩, flush1_6 _, ?_⟩
    rw [hidden0_mem_blk]
    intro a
    match a with
    | ⟨0, _⟩ =>
      show win1_6.index ⟨(i 0).val / 1024, ht⟩ (0 : Fin 2) * 1024 ≤ (i 0).val ∧ (i 0).val < win1_6.index ⟨(i 0).val / 1024, ht⟩ (0 : Fin 2) * 1024 + 1024
      rw [r0]; show (i 0).val / 1024 * 1024 ≤ (i 0).val ∧ (i 0).val < (i 0).val / 1024 * 1024 + 1024; omega
    | ⟨1, _⟩ =>
      show win1_6.index ⟨(i 0).val / 1024, ht⟩ (1 : Fin 2) * 8 ≤ (i 1).val ∧ (i 1).val < win1_6.index ⟨(i 0).val / 1024, ht⟩ (1 : Fin 2) * 8 + 8
      rw [r1]; omega

/-! ## Region 2: the second hidden layer (width 8 into width 8, clamped)

Point t of 8 loads rows [1024 t, 1024 t + 1024) of the adjacency array and the first hidden layer's result, the
weights and the biases whole, and writes rows [1024 t, 1024 t + 1024) of the result. -/

/-- The block indices at point t: the adjacency block and the output block start at row block t, every small operand's
    block is the array itself (block index 0 on every axis). -/
theorem hidden1_blocks : ∀ t : Fin cfg2.N,
    (win2_0.index t (0 : Fin 2) = t.val ∧ win2_0.index t (1 : Fin 2) = 0)
    ∧ (win2_1.index t (0 : Fin 2) = 0 ∧ win2_1.index t (1 : Fin 2) = 0)
    ∧ (win2_2.index t (0 : Fin 2) = 0 ∧ win2_2.index t (1 : Fin 2) = 0)
    ∧ win2_3.index t (0 : Fin 1) = 0
    ∧ (win2_4.index t (0 : Fin 2) = 0 ∧ win2_4.index t (1 : Fin 2) = 0)
    ∧ win2_5.index t (0 : Fin 1) = 0
    ∧ (win2_6.index t (0 : Fin 2) = t.val ∧ win2_6.index t (1 : Fin 2) = 0) :=
  (by decide +kernel : ∀ t : Fin grid2.N, _)

/-- The features' block is the first hidden layer's result array. -/
theorem hidden1_features (c : Dev nD) (t : Fin cfg2.N) : iblk2 V c 1 t = V c main_v5 := by
  obtain ⟨-, ⟨e0, e1⟩, -⟩ := hidden1_blocks t
  funext x
  show V c main_v5 (((cfg2.win 1).blk t).view.emb x) = V c main_v5 x
  congr 1
  funext a; apply Fin.ext
  match a with
  | ⟨0, _⟩ => show win2_1.index t (0 : Fin 2) * 8192 + 1 * (x 0).val = (x 0).val; rw [e0]; omega
  | ⟨1, _⟩ => show win2_1.index t (1 : Fin 2) * 8 + 1 * (x 1).val = (x 1).val; rw [e1]; omega

/-- The first weights' block is the weight matrix. -/
theorem hidden1_w1 (c : Dev nD) (t : Fin cfg2.N) : iblk2 V c 2 t = V c main_arg7 := by
  obtain ⟨-, -, ⟨e0, e1⟩, -⟩ := hidden1_blocks t
  funext x
  show V c main_arg7 (((cfg2.win 2).blk t).view.emb x) = V c main_arg7 x
  congr 1
  funext a; apply Fin.ext
  match a with
  | ⟨0, _⟩ => show win2_2.index t (0 : Fin 2) * 8 + 1 * (x 0).val = (x 0).val; rw [e0]; omega
  | ⟨1, _⟩ => show win2_2.index t (1 : Fin 2) * 8 + 1 * (x 1).val = (x 1).val; rw [e1]; omega

/-- The first bias's block is the bias vector. -/
theorem hidden1_b1 (c : Dev nD) (t : Fin cfg2.N) : iblk2 V c 3 t = V c main_arg8 := by
  obtain ⟨-, -, -, e0, -⟩ := hidden1_blocks t
  funext x
  show V c main_arg8 (((cfg2.win 3).blk t).view.emb x) = V c main_arg8 x
  congr 1
  funext a; apply Fin.ext
  match a with
  | ⟨0, _⟩ => show win2_3.index t (0 : Fin 1) * 8 + 1 * (x 0).val = (x 0).val; rw [e0]; omega

/-- The second weights' block is the weight matrix. -/
theorem hidden1_w2 (c : Dev nD) (t : Fin cfg2.N) : iblk2 V c 4 t = V c main_arg9 := by
  obtain ⟨-, -, -, -, ⟨e0, e1⟩, -⟩ := hidden1_blocks t
  funext x
  show V c main_arg9 (((cfg2.win 4).blk t).view.emb x) = V c main_arg9 x
  congr 1
  funext a; apply Fin.ext
  match a with
  | ⟨0, _⟩ => show win2_4.index t (0 : Fin 2) * 8 + 1 * (x 0).val = (x 0).val; rw [e0]; omega
  | ⟨1, _⟩ => show win2_4.index t (1 : Fin 2) * 8 + 1 * (x 1).val = (x 1).val; rw [e1]; omega

/-- The second bias's block is the bias vector. -/
theorem hidden1_b2 (c : Dev nD) (t : Fin cfg2.N) : iblk2 V c 5 t = V c main_arg10 := by
  obtain ⟨-, -, -, -, -, e0, -⟩ := hidden1_blocks t
  funext x
  show V c main_arg10 (((cfg2.win 5).blk t).view.emb x) = V c main_arg10 x
  congr 1
  funext a; apply Fin.ext
  match a with
  | ⟨0, _⟩ => show win2_5.index t (0 : Fin 1) * 8 + 1 * (x 0).val = (x 0).val; rw [e0]; omega

/-- Row p of the adjacency block at point t is row 1024 t + p of the adjacency array. -/
theorem hidden1_adj_row (c : Dev nD) (t : Fin cfg2.N) (p : Fin 1024) (k : Fin 8192) (h : 1024 * t.val + p.val < 8192) :
    iblk2 V c 0 t (ix2 p k) = V c main_v0 (ix2 ⟨1024 * t.val + p.val, h⟩ k) := by
  obtain ⟨⟨e0, e1⟩, -⟩ := hidden1_blocks t
  show V c main_v0 (((cfg2.win 0).blk t).view.emb (ix2 p k)) = V c main_v0 (ix2 ⟨1024 * t.val + p.val, h⟩ k)
  congr 1
  funext a; apply Fin.ext
  match a with
  | ⟨0, _⟩ => show win2_0.index t (0 : Fin 2) * 1024 + 1 * p.val = 1024 * t.val + p.val; rw [e0]; omega
  | ⟨1, _⟩ => show win2_0.index t (1 : Fin 2) * 8192 + 1 * k.val = k.val; rw [e1]; omega

/-- Entry (p, q) of the clamped layer over the adjacency block is entry (1024 t + p, q) of the clamped layer over the
    adjacency array: the layer reads the adjacency matrix through that one row. -/
theorem hidden1_point (c : Dev nD) (t : Fin cfg2.N) (p : Fin 1024) (q : Fin 8) (hrow : 1024 * t.val + p.val < 8192) :
    max (layerAt (iblk2 V c 0 t) (V c main_v5) (V c main_arg7) (V c main_arg8) (V c main_arg9) (V c main_arg10) p q) zero32
      = reluLayer (V c main_v0) (V c main_v5) (V c main_arg7) (V c main_arg8) (V c main_arg9) (V c main_arg10)
          (ix2 ⟨1024 * t.val + p.val, hrow⟩ q) := by
  rw [reluLayer_ix2]
  exact congrArg (fun x => max x zero32)
    (layerAt_congr_row _ _ _ _ _ _ _ p ⟨_, hrow⟩ q fun k => hidden1_adj_row V c t p k hrow)

/-- What point t writes back is block t of the clamped layer of the whole arrays. -/
theorem hidden1_flushed (c : Dev nD) (t : Fin cfg2.N) :
    (dat2 V c).flushed 6 t = ((cfg2.win 6).blk t).view.read (Elt Ideal)
      (reluLayer (V c main_v0) (V c main_v5) (V c main_arg7) (V c main_arg8) (V c main_arg9) (V c main_arg10)) := by
  show (cfg2.win 6).cut (grid2.coords t) ((dat2 V c).after 6 t) = _
  rw [after2_6]
  unfold out2_6
  rw [View.canon_unit_zero zero_offsets₂]
  simp only [View.ld_unit_zero (S := S1024x8192) zero_offsets₂, View.ld_unit_zero (S := S8192x8) zero_offsets₂,
    View.ld_unit_zero (S := S8x8) zero_offsets₂, View.ld_unit_zero (S := S8) zero_offsets₁]
  rw [hidden1_features, hidden1_w1, hidden1_b1, hidden1_w2, hidden1_b2]
  obtain ⟨-, -, -, -, -, -, r0, r1⟩ := hidden1_blocks t
  funext j
  obtain ⟨p, q, rfl⟩ : ∃ (p : Fin 1024) (q : Fin 8), j = ix2 p q := ⟨j 0, j 1, eq_ix2 j⟩
  refine (Pay.hidden1_apply _ _ _ _ _ _ p q).trans ?_
  have hrow : 1024 * t.val + p.val < 8192 := by
    have ht : t.val < 8 := t.isLt
    have hp := p.isLt
    omega
  have hemb : ((cfg2.win 6).blk t).view.emb (ix2 p q) = ix2 ⟨1024 * t.val + p.val, hrow⟩ q := by
    funext a; apply Fin.ext
    match a with
    | ⟨0, _⟩ => show win2_6.index t (0 : Fin 2) * 1024 + 1 * p.val = 1024 * t.val + p.val; rw [r0]; omega
    | ⟨1, _⟩ => show win2_6.index t (1 : Fin 2) * 8 + 1 * q.val = q.val; rw [r1]; omega
  refine (hidden1_point V c t p q hrow).trans ?_
  exact (congrArg (reluLayer (V c main_v0) (V c main_v5) (V c main_arg7) (V c main_arg8) (V c main_arg9) (V c main_arg10)) hemb).symm

/-- An index of the result is in point t's block iff each coordinate is in the block's range on its axis. -/
theorem hidden1_mem_blk (t : Fin cfg2.N) (i : S8192x8.Idx) :
    i ∈ ((cfg2.win 6).blk t).view.set ↔ ∀ a : Fin 2, win2_6.index t a * S1024x8.size a ≤ (i a).val ∧ (i a).val < win2_6.index t a * S1024x8.size a + S1024x8.size a := by
  show i ∈ ((View.whole main_v6).slice (win2_6.rect t)).set ↔ _
  rw [View.set_slice_whole, Rect.mem_set_unit]
  exact Iff.rfl

/-- Region 2: the clamped layer of the adjacency array, the first hidden layer's result and the second layer's weights
    and biases. Row r lies in the block of point r / 1024. -/
theorem arr2 (c : Dev nD) :
    (dat2 V c).arrAt 6 cfg2.N = reluLayer (V c main_v0) (V c main_v5) (V c main_arg7) (V c main_arg8) (V c main_arg9) (V c main_arg10) :=
  (dat2 V c).arrAt_eq_of_cover 6 _ (fun t _ => hidden1_flushed V c t) fun i => by
    have hi0 : (i 0).val < 8192 := (i 0).isLt
    have hi1 : (i 1).val < 8 := (i 1).isLt
    have ht : (i 0).val / 1024 < cfg2.N := by show _ < 8; omega
    obtain ⟨-, -, -, -, -, -, r0, r1⟩ := hidden1_blocks ⟨(i 0).val / 1024, ht⟩
    refine ⟨⟨(i 0).val / 1024, ht⟩, flush2_6 _, ?_⟩
    rw [hidden1_mem_blk]
    intro a
    match a with
    | ⟨0, _⟩ =>
      show win2_6.index ⟨(i 0).val / 1024, ht⟩ (0 : Fin 2) * 1024 ≤ (i 0).val ∧ (i 0).val < win2_6.index ⟨(i 0).val / 1024, ht⟩ (0 : Fin 2) * 1024 + 1024
      rw [r0]; show (i 0).val / 1024 * 1024 ≤ (i 0).val ∧ (i 0).val < (i 0).val / 1024 * 1024 + 1024; omega
    | ⟨1, _⟩ =>
      show win2_6.index ⟨(i 0).val / 1024, ht⟩ (1 : Fin 2) * 8 ≤ (i 1).val ∧ (i 1).val < win2_6.index ⟨(i 0).val / 1024, ht⟩ (1 : Fin 2) * 8 + 8
      rw [r1]; omega

/-! ## Region 3: the policy head (width 8 into width 1, not clamped)

Point t of 8 loads rows [1024 t, 1024 t + 1024) of the adjacency array and the second hidden layer's result, the
weights and the biases whole, and writes rows [1024 t, 1024 t + 1024) of the result. -/

/-- The block indices at point t: the adjacency block and the output block start at row block t, every small operand's
    block is the array itself (block index 0 on every axis). -/
theorem policy_blocks : ∀ t : Fin cfg3.N,
    (win3_0.index t (0 : Fin 2) = t.val ∧ win3_0.index t (1 : Fin 2) = 0)
    ∧ (win3_1.index t (0 : Fin 2) = 0 ∧ win3_1.index t (1 : Fin 2) = 0)
    ∧ (win3_2.index t (0 : Fin 2) = 0 ∧ win3_2.index t (1 : Fin 2) = 0)
    ∧ win3_3.index t (0 : Fin 1) = 0
    ∧ (win3_4.index t (0 : Fin 2) = 0 ∧ win3_4.index t (1 : Fin 2) = 0)
    ∧ win3_5.index t (0 : Fin 1) = 0
    ∧ (win3_6.index t (0 : Fin 2) = t.val ∧ win3_6.index t (1 : Fin 2) = 0) :=
  (by decide +kernel : ∀ t : Fin grid3.N, _)

/-- The features' block is the second hidden layer's result array. -/
theorem policy_features (c : Dev nD) (t : Fin cfg3.N) : iblk3 V c 1 t = V c main_v6 := by
  obtain ⟨-, ⟨e0, e1⟩, -⟩ := policy_blocks t
  funext x
  show V c main_v6 (((cfg3.win 1).blk t).view.emb x) = V c main_v6 x
  congr 1
  funext a; apply Fin.ext
  match a with
  | ⟨0, _⟩ => show win3_1.index t (0 : Fin 2) * 8192 + 1 * (x 0).val = (x 0).val; rw [e0]; omega
  | ⟨1, _⟩ => show win3_1.index t (1 : Fin 2) * 8 + 1 * (x 1).val = (x 1).val; rw [e1]; omega

/-- The first weights' block is the weight matrix. -/
theorem policy_w1 (c : Dev nD) (t : Fin cfg3.N) : iblk3 V c 2 t = V c main_arg11 := by
  obtain ⟨-, -, ⟨e0, e1⟩, -⟩ := policy_blocks t
  funext x
  show V c main_arg11 (((cfg3.win 2).blk t).view.emb x) = V c main_arg11 x
  congr 1
  funext a; apply Fin.ext
  match a with
  | ⟨0, _⟩ => show win3_2.index t (0 : Fin 2) * 8 + 1 * (x 0).val = (x 0).val; rw [e0]; omega
  | ⟨1, _⟩ => show win3_2.index t (1 : Fin 2) * 1 + 1 * (x 1).val = (x 1).val; rw [e1]; omega

/-- The first bias's block is the bias vector. -/
theorem policy_b1 (c : Dev nD) (t : Fin cfg3.N) : iblk3 V c 3 t = V c main_arg12 := by
  obtain ⟨-, -, -, e0, -⟩ := policy_blocks t
  funext x
  show V c main_arg12 (((cfg3.win 3).blk t).view.emb x) = V c main_arg12 x
  congr 1
  funext a; apply Fin.ext
  match a with
  | ⟨0, _⟩ => show win3_3.index t (0 : Fin 1) * 1 + 1 * (x 0).val = (x 0).val; rw [e0]; omega

/-- The second weights' block is the weight matrix. -/
theorem policy_w2 (c : Dev nD) (t : Fin cfg3.N) : iblk3 V c 4 t = V c main_arg13 := by
  obtain ⟨-, -, -, -, ⟨e0, e1⟩, -⟩ := policy_blocks t
  funext x
  show V c main_arg13 (((cfg3.win 4).blk t).view.emb x) = V c main_arg13 x
  congr 1
  funext a; apply Fin.ext
  match a with
  | ⟨0, _⟩ => show win3_4.index t (0 : Fin 2) * 1 + 1 * (x 0).val = (x 0).val; rw [e0]; omega
  | ⟨1, _⟩ => show win3_4.index t (1 : Fin 2) * 1 + 1 * (x 1).val = (x 1).val; rw [e1]; omega

/-- The second bias's block is the bias vector. -/
theorem policy_b2 (c : Dev nD) (t : Fin cfg3.N) : iblk3 V c 5 t = V c main_arg14 := by
  obtain ⟨-, -, -, -, -, e0, -⟩ := policy_blocks t
  funext x
  show V c main_arg14 (((cfg3.win 5).blk t).view.emb x) = V c main_arg14 x
  congr 1
  funext a; apply Fin.ext
  match a with
  | ⟨0, _⟩ => show win3_5.index t (0 : Fin 1) * 1 + 1 * (x 0).val = (x 0).val; rw [e0]; omega

/-- Row p of the adjacency block at point t is row 1024 t + p of the adjacency array. -/
theorem policy_adj_row (c : Dev nD) (t : Fin cfg3.N) (p : Fin 1024) (k : Fin 8192) (h : 1024 * t.val + p.val < 8192) :
    iblk3 V c 0 t (ix2 p k) = V c main_v0 (ix2 ⟨1024 * t.val + p.val, h⟩ k) := by
  obtain ⟨⟨e0, e1⟩, -⟩ := policy_blocks t
  show V c main_v0 (((cfg3.win 0).blk t).view.emb (ix2 p k)) = V c main_v0 (ix2 ⟨1024 * t.val + p.val, h⟩ k)
  congr 1
  funext a; apply Fin.ext
  match a with
  | ⟨0, _⟩ => show win3_0.index t (0 : Fin 2) * 1024 + 1 * p.val = 1024 * t.val + p.val; rw [e0]; omega
  | ⟨1, _⟩ => show win3_0.index t (1 : Fin 2) * 8192 + 1 * k.val = k.val; rw [e1]; omega

/-- Entry (p, q) of the layer over the adjacency block is entry (1024 t + p, q) of the layer over the adjacency array:
    the layer reads the adjacency matrix through that one row. -/
theorem policy_point (c : Dev nD) (t : Fin cfg3.N) (p : Fin 1024) (q : Fin 1) (hrow : 1024 * t.val + p.val < 8192) :
    layerAt (iblk3 V c 0 t) (V c main_v6) (V c main_arg11) (V c main_arg12) (V c main_arg13) (V c main_arg14) p q
      = layer (V c main_v0) (V c main_v6) (V c main_arg11) (V c main_arg12) (V c main_arg13) (V c main_arg14)
          (ix2 ⟨1024 * t.val + p.val, hrow⟩ q) := by
  rw [layer_ix2]
  exact layerAt_congr_row _ _ _ _ _ _ _ p ⟨_, hrow⟩ q fun k => policy_adj_row V c t p k hrow

/-- What point t writes back is block t of the layer of the whole arrays. -/
theorem policy_flushed (c : Dev nD) (t : Fin cfg3.N) :
    (dat3 V c).flushed 6 t = ((cfg3.win 6).blk t).view.read (Elt Ideal)
      (layer (V c main_v0) (V c main_v6) (V c main_arg11) (V c main_arg12) (V c main_arg13) (V c main_arg14)) := by
  show (cfg3.win 6).cut (grid3.coords t) ((dat3 V c).after 6 t) = _
  rw [after3_6]
  unfold out3_6
  rw [View.canon_unit_zero zero_offsets₂]
  simp only [View.ld_unit_zero (S := S1024x8192) zero_offsets₂, View.ld_unit_zero (S := S8192x8) zero_offsets₂,
    View.ld_unit_zero (S := S8x1) zero_offsets₂, View.ld_unit_zero (S := S1x1) zero_offsets₂,
    View.ld_unit_zero (S := S1) zero_offsets₁]
  rw [policy_features, policy_w1, policy_b1, policy_w2, policy_b2]
  obtain ⟨-, -, -, -, -, -, r0, r1⟩ := policy_blocks t
  funext j
  obtain ⟨p, q, rfl⟩ : ∃ (p : Fin 1024) (q : Fin 1), j = ix2 p q := ⟨j 0, j 1, eq_ix2 j⟩
  refine (Pay.policy_apply _ _ _ _ _ _ p q).trans ?_
  have hrow : 1024 * t.val + p.val < 8192 := by
    have ht : t.val < 8 := t.isLt
    have hp := p.isLt
    omega
  have hemb : ((cfg3.win 6).blk t).view.emb (ix2 p q) = ix2 ⟨1024 * t.val + p.val, hrow⟩ q := by
    funext a; apply Fin.ext
    match a with
    | ⟨0, _⟩ => show win3_6.index t (0 : Fin 2) * 1024 + 1 * p.val = 1024 * t.val + p.val; rw [r0]; omega
    | ⟨1, _⟩ => show win3_6.index t (1 : Fin 2) * 1 + 1 * q.val = q.val; rw [r1]; omega
  refine (policy_point V c t p q hrow).trans ?_
  exact (congrArg (layer (V c main_v0) (V c main_v6) (V c main_arg11) (V c main_arg12) (V c main_arg13) (V c main_arg14)) hemb).symm

/-- An index of the result is in point t's block iff each coordinate is in the block's range on its axis. -/
theorem policy_mem_blk (t : Fin cfg3.N) (i : S8192x1.Idx) :
    i ∈ ((cfg3.win 6).blk t).view.set ↔ ∀ a : Fin 2, win3_6.index t a * S1024x1.size a ≤ (i a).val ∧ (i a).val < win3_6.index t a * S1024x1.size a + S1024x1.size a := by
  show i ∈ ((View.whole main_v7).slice (win3_6.rect t)).set ↔ _
  rw [View.set_slice_whole, Rect.mem_set_unit]
  exact Iff.rfl

/-- Region 3: the layer of the adjacency array, the second hidden layer's result and the policy head's weights and
    biases. Row r lies in the block of point r / 1024. -/
theorem arr3 (c : Dev nD) :
    (dat3 V c).arrAt 6 cfg3.N = layer (V c main_v0) (V c main_v6) (V c main_arg11) (V c main_arg12) (V c main_arg13) (V c main_arg14) :=
  (dat3 V c).arrAt_eq_of_cover 6 _ (fun t _ => policy_flushed V c t) fun i => by
    have hi0 : (i 0).val < 8192 := (i 0).isLt
    have hi1 : (i 1).val < 1 := (i 1).isLt
    have ht : (i 0).val / 1024 < cfg3.N := by show _ < 8; omega
    obtain ⟨-, -, -, -, -, -, r0, r1⟩ := policy_blocks ⟨(i 0).val / 1024, ht⟩
    refine ⟨⟨(i 0).val / 1024, ht⟩, flush3_6 _, ?_⟩
    rw [policy_mem_blk]
    intro a
    match a with
    | ⟨0, _⟩ =>
      show win3_6.index ⟨(i 0).val / 1024, ht⟩ (0 : Fin 2) * 1024 ≤ (i 0).val ∧ (i 0).val < win3_6.index ⟨(i 0).val / 1024, ht⟩ (0 : Fin 2) * 1024 + 1024
      rw [r0]; show (i 0).val / 1024 * 1024 ≤ (i 0).val ∧ (i 0).val < (i 0).val / 1024 * 1024 + 1024; omega
    | ⟨1, _⟩ =>
      show win3_6.index ⟨(i 0).val / 1024, ht⟩ (1 : Fin 2) * 1 ≤ (i 1).val ∧ (i 1).val < win3_6.index ⟨(i 0).val / 1024, ht⟩ (1 : Fin 2) * 1 + 1
      rw [r1]; omega

/-! ## Region 4: the value head (width 8 into width 1, not clamped)

Point t of 8 loads rows [1024 t, 1024 t + 1024) of the adjacency array and the second hidden layer's result, the
weights and the biases whole, and writes rows [1024 t, 1024 t + 1024) of the result. -/

/-- The block indices at point t: the adjacency block and the output block start at row block t, every small operand's
    block is the array itself (block index 0 on every axis). -/
theorem value_blocks : ∀ t : Fin cfg4.N,
    (win4_0.index t (0 : Fin 2) = t.val ∧ win4_0.index t (1 : Fin 2) = 0)
    ∧ (win4_1.index t (0 : Fin 2) = 0 ∧ win4_1.index t (1 : Fin 2) = 0)
    ∧ (win4_2.index t (0 : Fin 2) = 0 ∧ win4_2.index t (1 : Fin 2) = 0)
    ∧ win4_3.index t (0 : Fin 1) = 0
    ∧ (win4_4.index t (0 : Fin 2) = 0 ∧ win4_4.index t (1 : Fin 2) = 0)
    ∧ win4_5.index t (0 : Fin 1) = 0
    ∧ (win4_6.index t (0 : Fin 2) = t.val ∧ win4_6.index t (1 : Fin 2) = 0) :=
  (by decide +kernel : ∀ t : Fin grid4.N, _)

/-- The features' block is the second hidden layer's result array. -/
theorem value_features (c : Dev nD) (t : Fin cfg4.N) : iblk4 V c 1 t = V c main_v6 := by
  obtain ⟨-, ⟨e0, e1⟩, -⟩ := value_blocks t
  funext x
  show V c main_v6 (((cfg4.win 1).blk t).view.emb x) = V c main_v6 x
  congr 1
  funext a; apply Fin.ext
  match a with
  | ⟨0, _⟩ => show win4_1.index t (0 : Fin 2) * 8192 + 1 * (x 0).val = (x 0).val; rw [e0]; omega
  | ⟨1, _⟩ => show win4_1.index t (1 : Fin 2) * 8 + 1 * (x 1).val = (x 1).val; rw [e1]; omega

/-- The first weights' block is the weight matrix. -/
theorem value_w1 (c : Dev nD) (t : Fin cfg4.N) : iblk4 V c 2 t = V c main_arg15 := by
  obtain ⟨-, -, ⟨e0, e1⟩, -⟩ := value_blocks t
  funext x
  show V c main_arg15 (((cfg4.win 2).blk t).view.emb x) = V c main_arg15 x
  congr 1
  funext a; apply Fin.ext
  match a with
  | ⟨0, _⟩ => show win4_2.index t (0 : Fin 2) * 8 + 1 * (x 0).val = (x 0).val; rw [e0]; omega
  | ⟨1, _⟩ => show win4_2.index t (1 : Fin 2) * 1 + 1 * (x 1).val = (x 1).val; rw [e1]; omega

/-- The first bias's block is the bias vector. -/
theorem value_b1 (c : Dev nD) (t : Fin cfg4.N) : iblk4 V c 3 t = V c main_arg16 := by
  obtain ⟨-, -, -, e0, -⟩ := value_blocks t
  funext x
  show V c main_arg16 (((cfg4.win 3).blk t).view.emb x) = V c main_arg16 x
  congr 1
  funext a; apply Fin.ext
  match a with
  | ⟨0, _⟩ => show win4_3.index t (0 : Fin 1) * 1 + 1 * (x 0).val = (x 0).val; rw [e0]; omega

/-- The second weights' block is the weight matrix. -/
theorem value_w2 (c : Dev nD) (t : Fin cfg4.N) : iblk4 V c 4 t = V c main_arg17 := by
  obtain ⟨-, -, -, -, ⟨e0, e1⟩, -⟩ := value_blocks t
  funext x
  show V c main_arg17 (((cfg4.win 4).blk t).view.emb x) = V c main_arg17 x
  congr 1
  funext a; apply Fin.ext
  match a with
  | ⟨0, _⟩ => show win4_4.index t (0 : Fin 2) * 1 + 1 * (x 0).val = (x 0).val; rw [e0]; omega
  | ⟨1, _⟩ => show win4_4.index t (1 : Fin 2) * 1 + 1 * (x 1).val = (x 1).val; rw [e1]; omega

/-- The second bias's block is the bias vector. -/
theorem value_b2 (c : Dev nD) (t : Fin cfg4.N) : iblk4 V c 5 t = V c main_arg18 := by
  obtain ⟨-, -, -, -, -, e0, -⟩ := value_blocks t
  funext x
  show V c main_arg18 (((cfg4.win 5).blk t).view.emb x) = V c main_arg18 x
  congr 1
  funext a; apply Fin.ext
  match a with
  | ⟨0, _⟩ => show win4_5.index t (0 : Fin 1) * 1 + 1 * (x 0).val = (x 0).val; rw [e0]; omega

/-- Row p of the adjacency block at point t is row 1024 t + p of the adjacency array. -/
theorem value_adj_row (c : Dev nD) (t : Fin cfg4.N) (p : Fin 1024) (k : Fin 8192) (h : 1024 * t.val + p.val < 8192) :
    iblk4 V c 0 t (ix2 p k) = V c main_v0 (ix2 ⟨1024 * t.val + p.val, h⟩ k) := by
  obtain ⟨⟨e0, e1⟩, -⟩ := value_blocks t
  show V c main_v0 (((cfg4.win 0).blk t).view.emb (ix2 p k)) = V c main_v0 (ix2 ⟨1024 * t.val + p.val, h⟩ k)
  congr 1
  funext a; apply Fin.ext
  match a with
  | ⟨0, _⟩ => show win4_0.index t (0 : Fin 2) * 1024 + 1 * p.val = 1024 * t.val + p.val; rw [e0]; omega
  | ⟨1, _⟩ => show win4_0.index t (1 : Fin 2) * 8192 + 1 * k.val = k.val; rw [e1]; omega

/-- Entry (p, q) of the layer over the adjacency block is entry (1024 t + p, q) of the layer over the adjacency array:
    the layer reads the adjacency matrix through that one row. -/
theorem value_point (c : Dev nD) (t : Fin cfg4.N) (p : Fin 1024) (q : Fin 1) (hrow : 1024 * t.val + p.val < 8192) :
    layerAt (iblk4 V c 0 t) (V c main_v6) (V c main_arg15) (V c main_arg16) (V c main_arg17) (V c main_arg18) p q
      = layer (V c main_v0) (V c main_v6) (V c main_arg15) (V c main_arg16) (V c main_arg17) (V c main_arg18)
          (ix2 ⟨1024 * t.val + p.val, hrow⟩ q) := by
  rw [layer_ix2]
  exact layerAt_congr_row _ _ _ _ _ _ _ p ⟨_, hrow⟩ q fun k => value_adj_row V c t p k hrow

/-- What point t writes back is block t of the layer of the whole arrays. -/
theorem value_flushed (c : Dev nD) (t : Fin cfg4.N) :
    (dat4 V c).flushed 6 t = ((cfg4.win 6).blk t).view.read (Elt Ideal)
      (layer (V c main_v0) (V c main_v6) (V c main_arg15) (V c main_arg16) (V c main_arg17) (V c main_arg18)) := by
  show (cfg4.win 6).cut (grid4.coords t) ((dat4 V c).after 6 t) = _
  rw [after4_6]
  unfold out4_6
  rw [View.canon_unit_zero zero_offsets₂]
  simp only [View.ld_unit_zero (S := S1024x8192) zero_offsets₂, View.ld_unit_zero (S := S8192x8) zero_offsets₂,
    View.ld_unit_zero (S := S8x1) zero_offsets₂, View.ld_unit_zero (S := S1x1) zero_offsets₂,
    View.ld_unit_zero (S := S1) zero_offsets₁]
  rw [value_features, value_w1, value_b1, value_w2, value_b2]
  obtain ⟨-, -, -, -, -, -, r0, r1⟩ := value_blocks t
  funext j
  obtain ⟨p, q, rfl⟩ : ∃ (p : Fin 1024) (q : Fin 1), j = ix2 p q := ⟨j 0, j 1, eq_ix2 j⟩
  refine (Pay.value_apply _ _ _ _ _ _ p q).trans ?_
  have hrow : 1024 * t.val + p.val < 8192 := by
    have ht : t.val < 8 := t.isLt
    have hp := p.isLt
    omega
  have hemb : ((cfg4.win 6).blk t).view.emb (ix2 p q) = ix2 ⟨1024 * t.val + p.val, hrow⟩ q := by
    funext a; apply Fin.ext
    match a with
    | ⟨0, _⟩ => show win4_6.index t (0 : Fin 2) * 1024 + 1 * p.val = 1024 * t.val + p.val; rw [r0]; omega
    | ⟨1, _⟩ => show win4_6.index t (1 : Fin 2) * 1 + 1 * q.val = q.val; rw [r1]; omega
  refine (value_point V c t p q hrow).trans ?_
  exact (congrArg (layer (V c main_v0) (V c main_v6) (V c main_arg15) (V c main_arg16) (V c main_arg17) (V c main_arg18)) hemb).symm

/-- An index of the result is in point t's block iff each coordinate is in the block's range on its axis. -/
theorem value_mem_blk (t : Fin cfg4.N) (i : S8192x1.Idx) :
    i ∈ ((cfg4.win 6).blk t).view.set ↔ ∀ a : Fin 2, win4_6.index t a * S1024x1.size a ≤ (i a).val ∧ (i a).val < win4_6.index t a * S1024x1.size a + S1024x1.size a := by
  show i ∈ ((View.whole main_v8).slice (win4_6.rect t)).set ↔ _
  rw [View.set_slice_whole, Rect.mem_set_unit]
  exact Iff.rfl

/-- Region 4: the layer of the adjacency array, the second hidden layer's result and the value head's weights and
    biases. Row r lies in the block of point r / 1024. -/
theorem arr4 (c : Dev nD) :
    (dat4 V c).arrAt 6 cfg4.N = layer (V c main_v0) (V c main_v6) (V c main_arg15) (V c main_arg16) (V c main_arg17) (V c main_arg18) :=
  (dat4 V c).arrAt_eq_of_cover 6 _ (fun t _ => value_flushed V c t) fun i => by
    have hi0 : (i 0).val < 8192 := (i 0).isLt
    have hi1 : (i 1).val < 1 := (i 1).isLt
    have ht : (i 0).val / 1024 < cfg4.N := by show _ < 8; omega
    obtain ⟨-, -, -, -, -, -, r0, r1⟩ := value_blocks ⟨(i 0).val / 1024, ht⟩
    refine ⟨⟨(i 0).val / 1024, ht⟩, flush4_6 _, ?_⟩
    rw [value_mem_blk]
    intro a
    match a with
    | ⟨0, _⟩ =>
      show win4_6.index ⟨(i 0).val / 1024, ht⟩ (0 : Fin 2) * 1024 ≤ (i 0).val ∧ (i 0).val < win4_6.index ⟨(i 0).val / 1024, ht⟩ (0 : Fin 2) * 1024 + 1024
      rw [r0]; show (i 0).val / 1024 * 1024 ≤ (i 0).val ∧ (i 0).val < (i 0).val / 1024 * 1024 + 1024; omega
    | ⟨1, _⟩ =>
      show win4_6.index ⟨(i 0).val / 1024, ht⟩ (1 : Fin 2) * 1 ≤ (i 1).val ∧ (i 1).val < win4_6.index ⟨(i 0).val / 1024, ht⟩ (1 : Fin 2) * 1 + 1
      rw [r1]; omega

end Cert.KernelIdeal.Regions

end
-- ==== Proof.Tail.lean ====
/- The host operations both programs share, each as ONE function of the array it is applied to.

   The head stacks the two distance vectors as the columns of an [8192, 2] array. The policy tail is a softmax over
   the 8192 nodes: subtract the maximum, exponentiate, divide by the sum. The value tail centres the column at its
   mean and divides by the square root of (the mean squared deviation plus 1e-10). Both programs apply exactly these
   operations, so the certificate compares what goes INTO them and never opens them. The facts about shapes are
   variables: whichever proof terms a program carries for them fit. -/
import Idealize.ShloMosaic.PureOps.Ideal

noncomputable section

namespace Cert.Gin

open Idealize.ShloMosaic

variable {F : FTy → Type} [FloatOps F]

abbrev T8192x2 : Shape := ⟨2, ![8192, 2]⟩
abbrev T8192x1 : Shape := ⟨2, ![8192, 1]⟩
abbrev T8192 : Shape := ⟨1, ![8192]⟩
abbrev T1 : Shape := ⟨1, ![1]⟩
abbrev T0 : Shape := ⟨0, ![]⟩

/-- The two distance vectors as the two columns of one array. -/
def stack (hb : T8192.BroadcastsInDim T8192x1 (![0] : Fin 1 → Fin T8192x1.rank))
    (hc : Shape.Concatenates [T8192x1, T8192x1] T8192x2 1) (d1 d2 : FVec F T8192 .f32) : FVec F T8192x2 .f32 :=
  concatenate T8192x2 1 [⟨T8192x1, broadcastInDim T8192x1 ![0] hb d1⟩, ⟨T8192x1, broadcastInDim T8192x1 ![0] hb d2⟩] hc

/-- Softmax of a column over its 8192 entries. -/
def softmaxTail (hc : T8192x1.ShapeCasts T8192) (hr : T8192.ReducesTo [0] T0) (h0 : 0 < T0.numel)
    (hb1 : T0.BroadcastsInDim T1 (![] : Fin 0 → Fin T1.rank)) (hb2 : T1.BroadcastsInDim T8192 (![0] : Fin 1 → Fin T8192.rank))
    (p : FVec F T8192x1 .f32) : FVec F T8192 .f32 :=
  Host.divf
    (Host.exp (subf (shapeCast T8192 p hc) (broadcastInDim T8192 ![0] hb2 (broadcastInDim T1 ![] hb1
      (maximumf (constant T0 .f32 0xFF800000#32)
        (Host.reduce FloatOps.maximumf (shapeCast T8192 p hc) (constant T0 .f32 0xFF800000#32) hr h0))))))
    (broadcastInDim T8192 ![0] hb2 (broadcastInDim T1 ![] hb1
      (Host.reduceAdd
        (Host.exp (subf (shapeCast T8192 p hc) (broadcastInDim T8192 ![0] hb2 (broadcastInDim T1 ![] hb1
          (maximumf (constant T0 .f32 0xFF800000#32)
            (Host.reduce FloatOps.maximumf (shapeCast T8192 p hc) (constant T0 .f32 0xFF800000#32) hr h0))))))
        (constant T0 .f32 0x00000000#32) hr h0)))

/-- The mean of a column's 8192 entries, as a scalar array. -/
def meanOf (hr : T8192.ReducesTo [0] T0) (h0 : 0 < T0.numel) (v : FVec F T8192 .f32) : FVec F T0 .f32 :=
  Host.divf (Host.reduceAdd v (constant T0 .f32 0x00000000#32) hr h0) (constant T0 .f32 0x46000000#32)

/-- A column centred at its mean and divided by its standard deviation (with 1e-10 under the root). -/
def normTail (hc : T8192x1.ShapeCasts T8192) (hr : T8192.ReducesTo [0] T0) (h0 : 0 < T0.numel)
    (hb : T0.BroadcastsInDim T8192 (![] : Fin 0 → Fin T8192.rank)) (p : FVec F T8192x1 .f32) : FVec F T8192 .f32 :=
  Host.divf
    (subf (shapeCast T8192 p hc) (broadcastInDim T8192 ![] hb (meanOf hr h0 (shapeCast T8192 p hc))))
    (broadcastInDim T8192 ![] hb
      (Host.sqrt (addf
        (Host.divf
          (Host.reduceAdd
            (mulf (subf (shapeCast T8192 p hc) (broadcastInDim T8192 ![] hb (meanOf hr h0 (shapeCast T8192 p hc))))
                  (subf (shapeCast T8192 p hc) (broadcastInDim T8192 ![] hb (meanOf hr h0 (shapeCast T8192 p hc)))))
            (constant T0 .f32 0x00000000#32) hr h0)
          (constant T0 .f32 0x46000000#32))
        (constant T0 .f32 0x2EDBE6FF#32))))

end Cert.Gin

end
-- ==== Proof.Network.lean ====
/- The two results as functions of the nineteen argument arrays.

   Two hidden layers (each clamped at zero) run over the stacked distance vectors; the policy head and the value head
   are two more layers over the second hidden layer's output, each of width one; the policy is the softmax of its
   column, the value its column standardised. Both programs compute exactly this at the exact reals. -/
import proofs.«101973_j47141561041408_1_alg».proof.Proof.Spec
import proofs.«101973_j47141561041408_1_alg».proof.Proof.Tail

noncomputable section

namespace Cert.Gin

open Idealize.ShloMosaic

/-- The second hidden layer's output: two clamped layers over the stacked distances. -/
def hidden (hb : T8192.BroadcastsInDim T8192x1 (![0] : Fin 1 → Fin T8192x1.rank))
    (hcc : Shape.Concatenates [T8192x1, T8192x1] T8192x2 1)
    (A : (⟨2, ![8192, 8192]⟩ : Shape).Idx → EReal) (d1 d2 : (⟨1, ![8192]⟩ : Shape).Idx → EReal)
    (W1a : (⟨2, ![2, 8]⟩ : Shape).Idx → EReal) (b1a : (⟨1, ![8]⟩ : Shape).Idx → EReal)
    (W2a : (⟨2, ![8, 8]⟩ : Shape).Idx → EReal) (b2a : (⟨1, ![8]⟩ : Shape).Idx → EReal)
    (W1b : (⟨2, ![8, 8]⟩ : Shape).Idx → EReal) (b1b : (⟨1, ![8]⟩ : Shape).Idx → EReal)
    (W2b : (⟨2, ![8, 8]⟩ : Shape).Idx → EReal) (b2b : (⟨1, ![8]⟩ : Shape).Idx → EReal) : (⟨2, ![8192, 8]⟩ : Shape).Idx → EReal :=
  reluLayer A (reluLayer A (stack (F := Ideal) hb hcc d1 d2) W1a b1a W2a b2a) W1b b1b W2b b2b

/-- A head: one more layer, of width one, over the hidden features. -/
def head (A : (⟨2, ![8192, 8192]⟩ : Shape).Idx → EReal) (H : (⟨2, ![8192, 8]⟩ : Shape).Idx → EReal)
    (W1 : (⟨2, ![8, 1]⟩ : Shape).Idx → EReal) (b1 : (⟨1, ![1]⟩ : Shape).Idx → EReal)
    (W2 : (⟨2, ![1, 1]⟩ : Shape).Idx → EReal) (b2 : (⟨1, ![1]⟩ : Shape).Idx → EReal) : (⟨2, ![8192, 1]⟩ : Shape).Idx → EReal :=
  layer A H W1 b1 W2 b2

end Cert.Gin

end
-- ==== Proof.KernelChain.lean ====
/- The contents of the buffers at each boundary between @main's segments, as functions of the argument arrays.

   No host operation and no region writes an argument array, and a region writes only its own output array, so at
   every boundary each buffer that a later region reads is either an argument as launched, the stacked distances,
   or an earlier region's output; following the boundaries in order gives the two heads' columns as layers over
   layers of the arguments, and the two results as the shared tails of those columns. -/
import proofs.«101973_j47141561041408_1_alg».proof.Proof.Gen.KernelIdeal.Frame
import proofs.«101973_j47141561041408_1_alg».proof.Proof.KernelRegions
import proofs.«101973_j47141561041408_1_alg».proof.Proof.Network
import proofs.«101973_j47141561041408_1_alg».proof.Proof.KernelRun
import Idealize.ShloMosaic.Lib.StableHlo.Run

set_option maxRecDepth 16384

noncomputable section

namespace Cert.KernelIdeal.Chain

open Cert.KernelIdeal Cert.KernelIdeal.Gen Cert.Gin Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- The first host stretch (the stacking) writes only its own four buffers: any other buffer passes through it. -/
theorem W2_keep (c : Dev nD) (b : Ref sig .tc) (h1 : b ≠ main_v1) (h2 : b ≠ main_v2) (h3 : b ≠ main_v3) (h4 : b ≠ main_v4) :
    W2 m ρ c (Proc.devRef .tc b) = W1 m ρ c (Proc.devRef .tc b) := by
  refine StableHlo.after_of_forall_not_mem (b := Proc.devRef .tc b) _ _ (List.forall_iff_forall_mem.mp ?_)
  simp only [hostOps1, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  exact ⟨StableHlo.devRef_ne_of_ne h1, StableHlo.devRef_ne_of_ne h2, StableHlo.devRef_ne_of_ne h3, StableHlo.devRef_ne_of_ne h4⟩

/-- A buffer that neither region 0 nor the stacking writes holds, at region 1's entry, what was launched. -/
theorem V2_arg (c : Dev nD) (b : Ref sig .tc) (h0 : ∀ w, Pipeline.arrRef spec0 w ≠ b)
    (h1 : b ≠ main_v1) (h2 : b ≠ main_v2) (h3 : b ≠ main_v3) (h4 : b ≠ main_v4) :
    V2 m ρ c b = m ((c : Thread nD τ).loc b) :=
  (W2_keep m ρ c b h1 h2 h3 h4).trans (W1_of_ne m ρ c b h0)

/-- Region 0 leaves the adjacency array, in the narrower format, in its output. -/
theorem V1_adj (c : Dev nD) : V1 m ρ c main_v0 = m ((c : Thread nD τ).loc main_arg0) :=
  (W1_arr m ρ c 1).trans (Regions.arr0 (V0 m ρ) c)

theorem V2_adj (c : Dev nD) : V2 m ρ c main_v0 = m ((c : Thread nD τ).loc main_arg0) :=
  (W2_keep m ρ c main_v0 (by decide) (by decide) (by decide) (by decide)).trans (V1_adj m ρ c)

theorem V3_adj (c : Dev nD) : V3 m ρ c main_v0 = m ((c : Thread nD τ).loc main_arg0) :=
  (W3_arr m ρ c 0).trans (((dat1 (V2 m ρ) c).arrAt_in 0 rfl _).trans ((A_eq1 (V2 m ρ) c 0).trans (V2_adj m ρ c)))

/-- The stacked distances, as region 1 finds them. -/
theorem V2_stack (c : Dev nD) :
    V2 m ρ c main_v4 = stack (F := Ideal) bcast_S8192_S8192x1_0 concatenates_S8192x1_S8192x1_S8192x2_d1
      (m ((c : Thread nD τ).loc main_arg1)) (m ((c : Thread nD τ).loc main_arg2)) := by
  show StableHlo.after hostOps1 (W1 m ρ c) (Proc.devRef .tc main_v4) = _
  after_results
  rw [W1_of_ne m ρ c main_arg1 (by decide), W1_of_ne m ρ c main_arg2 (by decide)]
  rfl

/-- A buffer no earlier segment writes holds what was launched at region 2's, 3's and 4's entries too. -/
theorem V3_arg (c : Dev nD) (b : Ref sig .tc) (h0 : ∀ w, Pipeline.arrRef spec0 w ≠ b)
    (h1 : b ≠ main_v1) (h2 : b ≠ main_v2) (h3 : b ≠ main_v3) (h4 : b ≠ main_v4) (hr1 : ∀ w, Pipeline.arrRef spec1 w ≠ b) :
    V3 m ρ c b = m ((c : Thread nD τ).loc b) :=
  (W3_of_ne m ρ c b hr1).trans (V2_arg m ρ c b h0 h1 h2 h3 h4)

theorem V4_arg (c : Dev nD) (b : Ref sig .tc) (h0 : ∀ w, Pipeline.arrRef spec0 w ≠ b)
    (h1 : b ≠ main_v1) (h2 : b ≠ main_v2) (h3 : b ≠ main_v3) (h4 : b ≠ main_v4) (hr1 : ∀ w, Pipeline.arrRef spec1 w ≠ b)
    (hr2 : ∀ w, Pipeline.arrRef spec2 w ≠ b) : V4 m ρ c b = m ((c : Thread nD τ).loc b) :=
  (W4_of_ne m ρ c b hr2).trans (V3_arg m ρ c b h0 h1 h2 h3 h4 hr1)

theorem V5_arg (c : Dev nD) (b : Ref sig .tc) (h0 : ∀ w, Pipeline.arrRef spec0 w ≠ b)
    (h1 : b ≠ main_v1) (h2 : b ≠ main_v2) (h3 : b ≠ main_v3) (h4 : b ≠ main_v4) (hr1 : ∀ w, Pipeline.arrRef spec1 w ≠ b)
    (hr2 : ∀ w, Pipeline.arrRef spec2 w ≠ b) (hr3 : ∀ w, Pipeline.arrRef spec3 w ≠ b) : V5 m ρ c b = m ((c : Thread nD τ).loc b) :=
  (W5_of_ne m ρ c b hr3).trans (V4_arg m ρ c b h0 h1 h2 h3 h4 hr1 hr2)

/-- Regions 1, 2 and 3 only read the adjacency array: it is still there at the next entry. -/
theorem V4_adj (c : Dev nD) : V4 m ρ c main_v0 = m ((c : Thread nD τ).loc main_arg0) :=
  (W4_arr m ρ c 0).trans (((dat2 (V3 m ρ) c).arrAt_in 0 rfl _).trans ((A_eq2 (V3 m ρ) c 0).trans (V3_adj m ρ c)))

theorem V5_adj (c : Dev nD) : V5 m ρ c main_v0 = m ((c : Thread nD τ).loc main_arg0) :=
  (W5_arr m ρ c 0).trans (((dat3 (V4 m ρ) c).arrAt_in 0 rfl _).trans ((A_eq3 (V4 m ρ) c 0).trans (V4_adj m ρ c)))

/-- Region 1 leaves the first hidden layer of the stacked distances. -/
theorem V3_hidden0 (c : Dev nD) :
    V3 m ρ c main_v5 = reluLayer (m ((c : Thread nD τ).loc main_arg0)) (stack (F := Ideal) bcast_S8192_S8192x1_0 concatenates_S8192x1_S8192x1_S8192x2_d1 (m ((c : Thread nD τ).loc main_arg1)) (m ((c : Thread nD τ).loc main_arg2))) (m ((c : Thread nD τ).loc main_arg3)) (m ((c : Thread nD τ).loc main_arg4)) (m ((c : Thread nD τ).loc main_arg5)) (m ((c : Thread nD τ).loc main_arg6)) := by
  refine (W3_arr m ρ c 6).trans ((Regions.arr1 (V2 m ρ) c).trans ?_)
  rw [V2_adj m ρ c, V2_stack m ρ c, V2_arg m ρ c main_arg3 (by decide) (by decide) (by decide) (by decide) (by decide), V2_arg m ρ c main_arg4 (by decide) (by decide) (by decide) (by decide) (by decide),
    V2_arg m ρ c main_arg5 (by decide) (by decide) (by decide) (by decide) (by decide), V2_arg m ρ c main_arg6 (by decide) (by decide) (by decide) (by decide) (by decide)]

/-- Region 2 leaves the second hidden layer. -/
theorem V4_hidden (c : Dev nD) : V4 m ρ c main_v6 = (hidden bcast_S8192_S8192x1_0 concatenates_S8192x1_S8192x1_S8192x2_d1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  refine (W4_arr m ρ c 6).trans ((Regions.arr2 (V3 m ρ) c).trans ?_)
  rw [V3_adj m ρ c, V3_hidden0 m ρ c, V3_arg m ρ c main_arg7 (by decide) (by decide) (by decide) (by decide) (by decide) (by decide), V3_arg m ρ c main_arg8 (by decide) (by decide) (by decide) (by decide) (by decide) (by decide),
    V3_arg m ρ c main_arg9 (by decide) (by decide) (by decide) (by decide) (by decide) (by decide), V3_arg m ρ c main_arg10 (by decide) (by decide) (by decide) (by decide) (by decide) (by decide)]
  rfl

/-- Region 3 only reads the second hidden layer. -/
theorem V5_hidden (c : Dev nD) : V5 m ρ c main_v6 = (hidden bcast_S8192_S8192x1_0 concatenates_S8192x1_S8192x1_S8192x2_d1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) :=
  (W5_arr m ρ c 1).trans (((dat3 (V4 m ρ) c).arrAt_in 1 rfl _).trans ((A_eq3 (V4 m ρ) c 1).trans (V4_hidden m ρ c)))

/-- Region 3 leaves the policy head's column, which region 4 does not touch. -/
theorem V6_policy (c : Dev nD) : V6 m ρ c main_v7 = head (m ((c : Thread nD τ).loc main_arg0)) (hidden bcast_S8192_S8192x1_0 concatenates_S8192x1_S8192x1_S8192x2_d1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg11)) (m ((c : Thread nD τ).loc main_arg12)) (m ((c : Thread nD τ).loc main_arg13)) (m ((c : Thread nD τ).loc main_arg14)) := by
  refine (W6_of_ne m ρ c main_v7 (by decide)).trans ((W5_arr m ρ c 6).trans ((Regions.arr3 (V4 m ρ) c).trans ?_))
  rw [V4_adj m ρ c, V4_hidden m ρ c, V4_arg m ρ c main_arg11 (by decide) (by decide) (by decide) (by decide) (by decide) (by decide) (by decide), V4_arg m ρ c main_arg12 (by decide) (by decide) (by decide) (by decide) (by decide) (by decide) (by decide),
    V4_arg m ρ c main_arg13 (by decide) (by decide) (by decide) (by decide) (by decide) (by decide) (by decide), V4_arg m ρ c main_arg14 (by decide) (by decide) (by decide) (by decide) (by decide) (by decide) (by decide)]
  rfl

/-- Region 4 leaves the value head's column. -/
theorem V6_value (c : Dev nD) : V6 m ρ c main_v8 = head (m ((c : Thread nD τ).loc main_arg0)) (hidden bcast_S8192_S8192x1_0 concatenates_S8192x1_S8192x1_S8192x2_d1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg15)) (m ((c : Thread nD τ).loc main_arg16)) (m ((c : Thread nD τ).loc main_arg17)) (m ((c : Thread nD τ).loc main_arg18)) := by
  refine (W6_arr m ρ c 6).trans ((Regions.arr4 (V5 m ρ) c).trans ?_)
  rw [V5_adj m ρ c, V5_hidden m ρ c, V5_arg m ρ c main_arg15 (by decide) (by decide) (by decide) (by decide) (by decide) (by decide) (by decide) (by decide), V5_arg m ρ c main_arg16 (by decide) (by decide) (by decide) (by decide) (by decide) (by decide) (by decide) (by decide),
    V5_arg m ρ c main_arg17 (by decide) (by decide) (by decide) (by decide) (by decide) (by decide) (by decide) (by decide), V5_arg m ρ c main_arg18 (by decide) (by decide) (by decide) (by decide) (by decide) (by decide) (by decide) (by decide)]
  rfl

/-- The last host stretch applies the softmax to the policy head's column. -/
theorem W7_policy (c : Dev nD) :
    W7 m ρ c (Proc.devRef .tc main_v19)
      = softmaxTail (F := Ideal) shapeCasts_S8192x1_S8192 reducesTo_S8192_S_d0 h_S_ bcast_S_S1 bcast_S1_S8192_0 (V6 m ρ c main_v7) := by
  show StableHlo.after hostOps5 (W6 m ρ c) (Proc.devRef .tc main_v19) = _
  after_results
  rfl

/-- The last host stretch standardises the value head's column. -/
theorem W7_value (c : Dev nD) :
    W7 m ρ c (Proc.devRef .tc main_v33)
      = normTail (F := Ideal) shapeCasts_S8192x1_S8192 reducesTo_S8192_S_d0 h_S_ bcast_S_S8192 (V6 m ρ c main_v8) := by
  show StableHlo.after hostOps5 (W6 m ρ c) (Proc.devRef .tc main_v33) = _
  after_results
  rfl

/-- The policy the kernel ends with, as a function of the launch memory: the softmax of the policy head over the
    hidden layers of the arguments. -/
def policyOf (c : Dev nD) : Buf (Elt Ideal) ((c.tc : Thread nD τ).loc main_v19) :=
  softmaxTail (F := Ideal) shapeCasts_S8192x1_S8192 reducesTo_S8192_S_d0 h_S_ bcast_S_S1 bcast_S1_S8192_0
        (head (m ((c : Thread nD τ).loc main_arg0)) (hidden bcast_S8192_S8192x1_0 concatenates_S8192x1_S8192x1_S8192x2_d1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg11)) (m ((c : Thread nD τ).loc main_arg12)) (m ((c : Thread nD τ).loc main_arg13)) (m ((c : Thread nD τ).loc main_arg14)))

/-- The value the kernel ends with: the standardised value head over the hidden layers of the arguments. -/
def valueOf (c : Dev nD) : Buf (Elt Ideal) ((c.tc : Thread nD τ).loc main_v33) :=
  normTail (F := Ideal) shapeCasts_S8192x1_S8192 reducesTo_S8192_S_d0 h_S_ bcast_S_S8192
        (head (m ((c : Thread nD τ).loc main_arg0)) (hidden bcast_S8192_S8192x1_0 concatenates_S8192x1_S8192x1_S8192x2_d1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg15)) (m ((c : Thread nD τ).loc main_arg16)) (m ((c : Thread nD τ).loc main_arg17)) (m ((c : Thread nD τ).loc main_arg18)))

theorem policy_result (c : Dev nD) : W7 m ρ c (Proc.devRef .tc main_v19) = policyOf m c := by
  unfold policyOf
  rw [W7_policy m ρ c, V6_policy m ρ c]

theorem value_result (c : Dev nD) : W7 m ρ c (Proc.devRef .tc main_v33) = valueOf m c := by
  unfold valueOf
  rw [W7_value m ρ c, V6_value m ρ c]

/-- THE KERNEL'S RUN, READ: every weakly fair execution terminates without a fault, with the two results at those
    functions of the launch memory and the arguments unchanged. -/
theorem run_value : θ_run defs (onTc (τ := τ) (main (F := Ideal))) ⟨m, fun _ => 0, ρ⟩ (fun r => ∀ c : Dev nD,
      r.2.mem ((c.tc : Thread nD τ).loc main_v19) = policyOf m c
      ∧ r.2.mem ((c.tc : Thread nD τ).loc main_v33) = valueOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono
    (fun r h c => ⟨(h c).1.trans (policy_result m ρ c), (h c).2.1.trans (value_result m ρ c), (h c).2.2⟩)
    (Cert.KernelIdeal.Results.run (F := Ideal) m ρ)

end Cert.KernelIdeal.Chain

end
-- ==== Proof.RefStages.lean ====
/- The reference's stages as the layers of the specification.

   The reference applies, to whole arrays, a matrix product with the adjacency array, a matrix product with the first
   weights, the first bias down the rows, a clamp at zero, a matrix product with the second weights and the second
   bias; read at an index each product is the plain sum over its contracted index, so a stage is the layer over the
   previous stage. Its last operations on each head's column are the shared tails. -/
import proofs.«101973_j47141561041408_1_alg».proof.Proof.Gen.ReferenceIdeal.Run
import proofs.«101973_j47141561041408_1_alg».proof.Proof.Gen.ReferenceIdeal.Read
import proofs.«101973_j47141561041408_1_alg».proof.Proof.Spec
import proofs.«101973_j47141561041408_1_alg».proof.Proof.Tail
import proofs.«101973_j47141561041408_1_alg».proof.Proof.LibDotPlain

noncomputable section

namespace Cert.ReferenceIdeal.Stages

open Cert.ReferenceIdeal Cert.ReferenceIdeal.Gen Cert.ReferenceIdeal.Read Cert.Gin Idealize.ShloMosaic Idealize.ShloMosaic.ValueIdx

/-! ## Where each stage reads its operands

    A matrix product at entry (r, c) reads its left operand along row r and its right operand down column c; a bias laid
    along the rows is read at its column entry. Each equation below identifies one such index with the pair (or the
    single coordinate) it is, coordinate by coordinate. -/

/-! ### The first hidden layer's indices -/

/-- The adjacency array is read in row r, contracted column k. -/
theorem lidx_v3 (r : Fin 8192) (i : Fin 2) (k : Fin 8192) : lidx_main_v3 (ix2 r i) k = ix2 r k :=
  funext fun a => Fin.ext (by match a with | ⟨0, _⟩ => rfl | ⟨1, _⟩ => rfl)
/-- The features are read in contracted row k, column i. -/
theorem ridx_v3 (r : Fin 8192) (i : Fin 2) (k : Fin 8192) : ridx_main_v3 (ix2 r i) k = ix2 k i :=
  funext fun a => Fin.ext (by match a with | ⟨0, _⟩ => rfl | ⟨1, _⟩ => rfl)
/-- The aggregated features are read in row r, contracted column i. -/
theorem lidx_v4 (r : Fin 8192) (j : Fin 8) (i : Fin 2) : lidx_main_v4 (ix2 r j) i = ix2 r i :=
  funext fun a => Fin.ext (by match a with | ⟨0, _⟩ => rfl | ⟨1, _⟩ => rfl)
/-- The first weights are read in contracted row i, column j. -/
theorem ridx_v4 (r : Fin 8192) (j : Fin 8) (i : Fin 2) : ridx_main_v4 (ix2 r j) i = ix2 i j :=
  funext fun a => Fin.ext (by match a with | ⟨0, _⟩ => rfl | ⟨1, _⟩ => rfl)
/-- The first bias, laid along the rows, is read at its entry j whatever the row. -/
theorem idx_v5_v6 (r : Fin 8192) (j : Fin 8) : idx_main_v5 (idx_main_v6 (ix2 r j)) = ix1 j :=
  funext fun a => Fin.ext (by match a with | ⟨0, _⟩ => rfl)
/-- The clamped hidden values are read in row r, contracted column j. -/
theorem lidx_v9 (r : Fin 8192) (q : Fin 8) (j : Fin 8) : lidx_main_v9 (ix2 r q) j = ix2 r j :=
  funext fun a => Fin.ext (by match a with | ⟨0, _⟩ => rfl | ⟨1, _⟩ => rfl)
/-- The second weights are read in contracted row j, column q. -/
theorem ridx_v9 (r : Fin 8192) (q : Fin 8) (j : Fin 8) : ridx_main_v9 (ix2 r q) j = ix2 j q :=
  funext fun a => Fin.ext (by match a with | ⟨0, _⟩ => rfl | ⟨1, _⟩ => rfl)
/-- The second bias, laid along the rows, is read at its entry q whatever the row. -/
theorem idx_v10_v11 (r : Fin 8192) (q : Fin 8) : idx_main_v10 (idx_main_v11 (ix2 r q)) = ix1 q :=
  funext fun a => Fin.ext (by match a with | ⟨0, _⟩ => rfl)

/-! ### The second hidden layer's indices -/

/-- The adjacency array is read in row r, contracted column k. -/
theorem lidx_v14 (r : Fin 8192) (i : Fin 8) (k : Fin 8192) : lidx_main_v14 (ix2 r i) k = ix2 r k :=
  funext fun a => Fin.ext (by match a with | ⟨0, _⟩ => rfl | ⟨1, _⟩ => rfl)
/-- The features are read in contracted row k, column i. -/
theorem ridx_v14 (r : Fin 8192) (i : Fin 8) (k : Fin 8192) : ridx_main_v14 (ix2 r i) k = ix2 k i :=
  funext fun a => Fin.ext (by match a with | ⟨0, _⟩ => rfl | ⟨1, _⟩ => rfl)
/-- The aggregated features are read in row r, contracted column i. -/
theorem lidx_v15 (r : Fin 8192) (j : Fin 8) (i : Fin 8) : lidx_main_v15 (ix2 r j) i = ix2 r i :=
  funext fun a => Fin.ext (by match a with | ⟨0, _⟩ => rfl | ⟨1, _⟩ => rfl)
/-- The first weights are read in contracted row i, column j. -/
theorem ridx_v15 (r : Fin 8192) (j : Fin 8) (i : Fin 8) : ridx_main_v15 (ix2 r j) i = ix2 i j :=
  funext fun a => Fin.ext (by match a with | ⟨0, _⟩ => rfl | ⟨1, _⟩ => rfl)
/-- The first bias, laid along the rows, is read at its entry j whatever the row. -/
theorem idx_v16_v17 (r : Fin 8192) (j : Fin 8) : idx_main_v16 (idx_main_v17 (ix2 r j)) = ix1 j :=
  funext fun a => Fin.ext (by match a with | ⟨0, _⟩ => rfl)
/-- The clamped hidden values are read in row r, contracted column j. -/
theorem lidx_v20 (r : Fin 8192) (q : Fin 8) (j : Fin 8) : lidx_main_v20 (ix2 r q) j = ix2 r j :=
  funext fun a => Fin.ext (by match a with | ⟨0, _⟩ => rfl | ⟨1, _⟩ => rfl)
/-- The second weights are read in contracted row j, column q. -/
theorem ridx_v20 (r : Fin 8192) (q : Fin 8) (j : Fin 8) : ridx_main_v20 (ix2 r q) j = ix2 j q :=
  funext fun a => Fin.ext (by match a with | ⟨0, _⟩ => rfl | ⟨1, _⟩ => rfl)
/-- The second bias, laid along the rows, is read at its entry q whatever the row. -/
theorem idx_v21_v22 (r : Fin 8192) (q : Fin 8) : idx_main_v21 (idx_main_v22 (ix2 r q)) = ix1 q :=
  funext fun a => Fin.ext (by match a with | ⟨0, _⟩ => rfl)

/-! ### The policy head's indices -/

/-- The adjacency array is read in row r, contracted column k. -/
theorem lidx_v25 (r : Fin 8192) (i : Fin 8) (k : Fin 8192) : lidx_main_v25 (ix2 r i) k = ix2 r k :=
  funext fun a => Fin.ext (by match a with | ⟨0, _⟩ => rfl | ⟨1, _⟩ => rfl)
/-- The features are read in contracted row k, column i. -/
theorem ridx_v25 (r : Fin 8192) (i : Fin 8) (k : Fin 8192) : ridx_main_v25 (ix2 r i) k = ix2 k i :=
  funext fun a => Fin.ext (by match a with | ⟨0, _⟩ => rfl | ⟨1, _⟩ => rfl)
/-- The aggregated features are read in row r, contracted column i. -/
theorem lidx_v26 (r : Fin 8192) (j : Fin 1) (i : Fin 8) : lidx_main_v26 (ix2 r j) i = ix2 r i :=
  funext fun a => Fin.ext (by match a with | ⟨0, _⟩ => rfl | ⟨1, _⟩ => rfl)
/-- The first weights are read in contracted row i, column j. -/
theorem ridx_v26 (r : Fin 8192) (j : Fin 1) (i : Fin 8) : ridx_main_v26 (ix2 r j) i = ix2 i j :=
  funext fun a => Fin.ext (by match a with | ⟨0, _⟩ => rfl | ⟨1, _⟩ => rfl)
/-- The first bias, laid along the rows, is read at its entry j whatever the row. -/
theorem idx_v27_v28 (r : Fin 8192) (j : Fin 1) : idx_main_v27 (idx_main_v28 (ix2 r j)) = ix1 j :=
  funext fun a => Fin.ext (by match a with | ⟨0, _⟩ => exact (Fin.val_eq_zero j).symm)
/-- The clamped hidden values are read in row r, contracted column j. -/
theorem lidx_v31 (r : Fin 8192) (q : Fin 1) (j : Fin 1) : lidx_main_v31 (ix2 r q) j = ix2 r j :=
  funext fun a => Fin.ext (by match a with | ⟨0, _⟩ => rfl | ⟨1, _⟩ => rfl)
/-- The second weights are read in contracted row j, column q. -/
theorem ridx_v31 (r : Fin 8192) (q : Fin 1) (j : Fin 1) : ridx_main_v31 (ix2 r q) j = ix2 j q :=
  funext fun a => Fin.ext (by match a with | ⟨0, _⟩ => rfl | ⟨1, _⟩ => rfl)
/-- The second bias, laid along the rows, is read at its entry q whatever the row. -/
theorem idx_v32_v33 (r : Fin 8192) (q : Fin 1) : idx_main_v32 (idx_main_v33 (ix2 r q)) = ix1 q :=
  funext fun a => Fin.ext (by match a with | ⟨0, _⟩ => exact (Fin.val_eq_zero q).symm)

/-! ### The value head's indices -/

/-- The adjacency array is read in row r, contracted column k. -/
theorem lidx_v46 (r : Fin 8192) (i : Fin 8) (k : Fin 8192) : lidx_main_v46 (ix2 r i) k = ix2 r k :=
  funext fun a => Fin.ext (by match a with | ⟨0, _⟩ => rfl | ⟨1, _⟩ => rfl)
/-- The features are read in contracted row k, column i. -/
theorem ridx_v46 (r : Fin 8192) (i : Fin 8) (k : Fin 8192) : ridx_main_v46 (ix2 r i) k = ix2 k i :=
  funext fun a => Fin.ext (by match a with | ⟨0, _⟩ => rfl | ⟨1, _⟩ => rfl)
/-- The aggregated features are read in row r, contracted column i. -/
theorem lidx_v47 (r : Fin 8192) (j : Fin 1) (i : Fin 8) : lidx_main_v47 (ix2 r j) i = ix2 r i :=
  funext fun a => Fin.ext (by match a with | ⟨0, _⟩ => rfl | ⟨1, _⟩ => rfl)
/-- The first weights are read in contracted row i, column j. -/
theorem ridx_v47 (r : Fin 8192) (j : Fin 1) (i : Fin 8) : ridx_main_v47 (ix2 r j) i = ix2 i j :=
  funext fun a => Fin.ext (by match a with | ⟨0, _⟩ => rfl | ⟨1, _⟩ => rfl)
/-- The first bias, laid along the rows, is read at its entry j whatever the row. -/
theorem idx_v48_v49 (r : Fin 8192) (j : Fin 1) : idx_main_v48 (idx_main_v49 (ix2 r j)) = ix1 j :=
  funext fun a => Fin.ext (by match a with | ⟨0, _⟩ => exact (Fin.val_eq_zero j).symm)
/-- The clamped hidden values are read in row r, contracted column j. -/
theorem lidx_v52 (r : Fin 8192) (q : Fin 1) (j : Fin 1) : lidx_main_v52 (ix2 r q) j = ix2 r j :=
  funext fun a => Fin.ext (by match a with | ⟨0, _⟩ => rfl | ⟨1, _⟩ => rfl)
/-- The second weights are read in contracted row j, column q. -/
theorem ridx_v52 (r : Fin 8192) (q : Fin 1) (j : Fin 1) : ridx_main_v52 (ix2 r q) j = ix2 j q :=
  funext fun a => Fin.ext (by match a with | ⟨0, _⟩ => rfl | ⟨1, _⟩ => rfl)
/-- The second bias, laid along the rows, is read at its entry q whatever the row. -/
theorem idx_v53_v54 (r : Fin 8192) (q : Fin 1) : idx_main_v53 (idx_main_v54 (ix2 r q)) = ix1 q :=
  funext fun a => Fin.ext (by match a with | ⟨0, _⟩ => exact (Fin.val_eq_zero q).symm)

/-! ## The stages as layers and tails -/

/-- The stacked distances are the shared head. -/
theorem stack_eq (x1 x2 : (⟨S8192, .f32⟩ : BufTy).Contents (Elt Ideal)) :
    val_main_v2 (F := Ideal) x1 x2 = stack (F := Ideal) bcast_S8192_S8192x1_0 concatenates_S8192x1_S8192x1_S8192x2_d1 x1 x2 := by
  unfold val_main_v2 val_main_v0 val_main_v1 stack
  rfl

/-- The first hidden layer. -/
theorem hidden0_eq (x0 : (⟨S8192x8192, .f32⟩ : BufTy).Contents (Elt Ideal)) (x1 x2 : (⟨S8192, .f32⟩ : BufTy).Contents (Elt Ideal)) (x3 : (⟨S2x8, .f32⟩ : BufTy).Contents (Elt Ideal)) (x4 : (⟨S8, .f32⟩ : BufTy).Contents (Elt Ideal)) (x5 : (⟨S8x8, .f32⟩ : BufTy).Contents (Elt Ideal)) (x6 : (⟨S8, .f32⟩ : BufTy).Contents (Elt Ideal)) :
    val_main_v13 (F := Ideal) x0 x1 x2 x3 x4 x5 x6 = reluLayer x0 (val_main_v2 (F := Ideal) x1 x2) x3 x4 x5 x6 := by
  funext i
  obtain ⟨r, q, rfl⟩ : ∃ (r : Fin 8192) (q : Fin 8), i = ix2 r q := ⟨i 0, i 1, eq_ix2 i⟩
  rw [reluLayer_ix2]
  unfold layerAt
  -- read every stage at its index, outermost first: clamps and sums are pointwise, products are finite sums
  simp only [val_main_v13_apply, val_main_v12_apply, val_main_v9_apply, val_main_v11_apply, val_main_v10_apply,
    val_main_call1_v0_apply, val_main_call1_cst_apply, val_main_v8_apply, val_main_v7_apply, val_main_v4_apply,
    val_main_v3_apply, val_main_v6_apply, val_main_v5_apply, val_main_call0_v0_apply, val_main_call0_cst_apply]
  -- the operands are read where the layer reads them
  simp only [lidx_v9, ridx_v9, lidx_v4, ridx_v4, lidx_v3, ridx_v3, idx_v5_v6, idx_v10_v11]
  rfl

/-- The second hidden layer, over the first. -/
theorem hidden1_eq (x0 : (⟨S8192x8192, .f32⟩ : BufTy).Contents (Elt Ideal)) (x1 x2 : (⟨S8192, .f32⟩ : BufTy).Contents (Elt Ideal)) (x3 : (⟨S2x8, .f32⟩ : BufTy).Contents (Elt Ideal)) (x4 : (⟨S8, .f32⟩ : BufTy).Contents (Elt Ideal)) (x5 : (⟨S8x8, .f32⟩ : BufTy).Contents (Elt Ideal)) (x6 : (⟨S8, .f32⟩ : BufTy).Contents (Elt Ideal)) (x7 : (⟨S8x8, .f32⟩ : BufTy).Contents (Elt Ideal)) (x8 : (⟨S8, .f32⟩ : BufTy).Contents (Elt Ideal)) (x9 : (⟨S8x8, .f32⟩ : BufTy).Contents (Elt Ideal)) (x10 : (⟨S8, .f32⟩ : BufTy).Contents (Elt Ideal)) :
    val_main_v24 (F := Ideal) x0 x1 x2 x3 x4 x5 x6 x7 x8 x9 x10 = reluLayer x0 (val_main_v13 (F := Ideal) x0 x1 x2 x3 x4 x5 x6) x7 x8 x9 x10 := by
  funext i
  obtain ⟨r, q, rfl⟩ : ∃ (r : Fin 8192) (q : Fin 8), i = ix2 r q := ⟨i 0, i 1, eq_ix2 i⟩
  rw [reluLayer_ix2]
  unfold layerAt
  -- read every stage down to the first hidden layer, which stays as it is
  simp only [val_main_v24_apply, val_main_v23_apply, val_main_v20_apply, val_main_v22_apply, val_main_v21_apply,
    val_main_call3_v0_apply, val_main_call3_cst_apply, val_main_v19_apply, val_main_v18_apply, val_main_v15_apply,
    val_main_v14_apply, val_main_v17_apply, val_main_v16_apply, val_main_call2_v0_apply, val_main_call2_cst_apply]
  simp only [lidx_v20, ridx_v20, lidx_v15, ridx_v15, lidx_v14, ridx_v14, idx_v16_v17, idx_v21_v22]
  rfl

/-- The policy head, over the second hidden layer. -/
theorem policy_eq (x0 : (⟨S8192x8192, .f32⟩ : BufTy).Contents (Elt Ideal)) (x1 x2 : (⟨S8192, .f32⟩ : BufTy).Contents (Elt Ideal)) (x3 : (⟨S2x8, .f32⟩ : BufTy).Contents (Elt Ideal)) (x4 : (⟨S8, .f32⟩ : BufTy).Contents (Elt Ideal)) (x5 : (⟨S8x8, .f32⟩ : BufTy).Contents (Elt Ideal)) (x6 : (⟨S8, .f32⟩ : BufTy).Contents (Elt Ideal)) (x7 : (⟨S8x8, .f32⟩ : BufTy).Contents (Elt Ideal)) (x8 : (⟨S8, .f32⟩ : BufTy).Contents (Elt Ideal)) (x9 : (⟨S8x8, .f32⟩ : BufTy).Contents (Elt Ideal)) (x10 : (⟨S8, .f32⟩ : BufTy).Contents (Elt Ideal)) (x11 : (⟨S8x1, .f32⟩ : BufTy).Contents (Elt Ideal)) (x12 : (⟨S1, .f32⟩ : BufTy).Contents (Elt Ideal)) (x13 : (⟨S1x1, .f32⟩ : BufTy).Contents (Elt Ideal)) (x14 : (⟨S1, .f32⟩ : BufTy).Contents (Elt Ideal)) :
    val_main_v34 (F := Ideal) x0 x1 x2 x3 x4 x5 x6 x7 x8 x9 x10 x11 x12 x13 x14 = layer x0 (val_main_v24 (F := Ideal) x0 x1 x2 x3 x4 x5 x6 x7 x8 x9 x10) x11 x12 x13 x14 := by
  funext i
  obtain ⟨r, q, rfl⟩ : ∃ (r : Fin 8192) (q : Fin 1), i = ix2 r q := ⟨i 0, i 1, eq_ix2 i⟩
  rw [layer_ix2]
  unfold layerAt
  -- read every stage down to the second hidden layer, which stays as it is
  simp only [val_main_v34_apply, val_main_v31_apply, val_main_v33_apply, val_main_v32_apply,
    val_main_v30_apply, val_main_v29_apply, val_main_v26_apply, val_main_v25_apply, val_main_v28_apply,
    val_main_v27_apply, val_main_call4_v0_apply, val_main_call4_cst_apply]
  simp only [lidx_v31, ridx_v31, lidx_v26, ridx_v26, lidx_v25, ridx_v25, idx_v27_v28, idx_v32_v33]
  rfl

/-- The value head, over the second hidden layer. -/
theorem value_eq (x0 : (⟨S8192x8192, .f32⟩ : BufTy).Contents (Elt Ideal)) (x1 x2 : (⟨S8192, .f32⟩ : BufTy).Contents (Elt Ideal)) (x3 : (⟨S2x8, .f32⟩ : BufTy).Contents (Elt Ideal)) (x4 : (⟨S8, .f32⟩ : BufTy).Contents (Elt Ideal)) (x5 : (⟨S8x8, .f32⟩ : BufTy).Contents (Elt Ideal)) (x6 : (⟨S8, .f32⟩ : BufTy).Contents (Elt Ideal)) (x7 : (⟨S8x8, .f32⟩ : BufTy).Contents (Elt Ideal)) (x8 : (⟨S8, .f32⟩ : BufTy).Contents (Elt Ideal)) (x9 : (⟨S8x8, .f32⟩ : BufTy).Contents (Elt Ideal)) (x10 : (⟨S8, .f32⟩ : BufTy).Contents (Elt Ideal)) (x15 : (⟨S8x1, .f32⟩ : BufTy).Contents (Elt Ideal)) (x16 : (⟨S1, .f32⟩ : BufTy).Contents (Elt Ideal)) (x17 : (⟨S1x1, .f32⟩ : BufTy).Contents (Elt Ideal)) (x18 : (⟨S1, .f32⟩ : BufTy).Contents (Elt Ideal)) :
    val_main_v55 (F := Ideal) x0 x1 x2 x3 x4 x5 x6 x7 x8 x9 x10 x15 x16 x17 x18 = layer x0 (val_main_v24 (F := Ideal) x0 x1 x2 x3 x4 x5 x6 x7 x8 x9 x10) x15 x16 x17 x18 := by
  funext i
  obtain ⟨r, q, rfl⟩ : ∃ (r : Fin 8192) (q : Fin 1), i = ix2 r q := ⟨i 0, i 1, eq_ix2 i⟩
  rw [layer_ix2]
  unfold layerAt
  -- read every stage down to the second hidden layer, which stays as it is
  simp only [val_main_v55_apply, val_main_v52_apply, val_main_v54_apply, val_main_v53_apply,
    val_main_v51_apply, val_main_v50_apply, val_main_v47_apply, val_main_v46_apply, val_main_v49_apply,
    val_main_v48_apply, val_main_call5_v0_apply, val_main_call5_cst_apply]
  simp only [lidx_v52, ridx_v52, lidx_v47, ridx_v47, lidx_v46, ridx_v46, idx_v48_v49, idx_v53_v54]
  rfl

/-- The policy result is the shared softmax of the policy head's column. -/
theorem policyTail_eq (x0 : (⟨S8192x8192, .f32⟩ : BufTy).Contents (Elt Ideal)) (x1 x2 : (⟨S8192, .f32⟩ : BufTy).Contents (Elt Ideal)) (x3 : (⟨S2x8, .f32⟩ : BufTy).Contents (Elt Ideal)) (x4 : (⟨S8, .f32⟩ : BufTy).Contents (Elt Ideal)) (x5 : (⟨S8x8, .f32⟩ : BufTy).Contents (Elt Ideal)) (x6 : (⟨S8, .f32⟩ : BufTy).Contents (Elt Ideal)) (x7 : (⟨S8x8, .f32⟩ : BufTy).Contents (Elt Ideal)) (x8 : (⟨S8, .f32⟩ : BufTy).Contents (Elt Ideal)) (x9 : (⟨S8x8, .f32⟩ : BufTy).Contents (Elt Ideal)) (x10 : (⟨S8, .f32⟩ : BufTy).Contents (Elt Ideal)) (x11 : (⟨S8x1, .f32⟩ : BufTy).Contents (Elt Ideal)) (x12 : (⟨S1, .f32⟩ : BufTy).Contents (Elt Ideal)) (x13 : (⟨S1x1, .f32⟩ : BufTy).Contents (Elt Ideal)) (x14 : (⟨S1, .f32⟩ : BufTy).Contents (Elt Ideal)) :
    val_main_v45 (F := Ideal) x0 x1 x2 x3 x4 x5 x6 x7 x8 x9 x10 x11 x12 x13 x14
      = softmaxTail (F := Ideal) shapeCasts_S8192x1_S8192 reducesTo_S8192_S_d0 h_S_ bcast_S_S1 bcast_S1_S8192_0
          (val_main_v34 (F := Ideal) x0 x1 x2 x3 x4 x5 x6 x7 x8 x9 x10 x11 x12 x13 x14) := by
  -- both sides apply the same operations, in the same order, to the policy head's column
  unfold val_main_v45 val_main_v44 val_main_v43 val_main_v42 val_main_v41 val_main_v40 val_main_v39 val_main_v38
    val_main_v37 val_main_v36 val_main_v35 val_main_cst val_main_cst_0 val_main_cst_1 softmaxTail
  rfl

/-- The value result is the shared standardisation of the value head's column. -/
theorem valueTail_eq (x0 : (⟨S8192x8192, .f32⟩ : BufTy).Contents (Elt Ideal)) (x1 x2 : (⟨S8192, .f32⟩ : BufTy).Contents (Elt Ideal)) (x3 : (⟨S2x8, .f32⟩ : BufTy).Contents (Elt Ideal)) (x4 : (⟨S8, .f32⟩ : BufTy).Contents (Elt Ideal)) (x5 : (⟨S8x8, .f32⟩ : BufTy).Contents (Elt Ideal)) (x6 : (⟨S8, .f32⟩ : BufTy).Contents (Elt Ideal)) (x7 : (⟨S8x8, .f32⟩ : BufTy).Contents (Elt Ideal)) (x8 : (⟨S8, .f32⟩ : BufTy).Contents (Elt Ideal)) (x9 : (⟨S8x8, .f32⟩ : BufTy).Contents (Elt Ideal)) (x10 : (⟨S8, .f32⟩ : BufTy).Contents (Elt Ideal)) (x15 : (⟨S8x1, .f32⟩ : BufTy).Contents (Elt Ideal)) (x16 : (⟨S1, .f32⟩ : BufTy).Contents (Elt Ideal)) (x17 : (⟨S1x1, .f32⟩ : BufTy).Contents (Elt Ideal)) (x18 : (⟨S1, .f32⟩ : BufTy).Contents (Elt Ideal)) :
    val_main_v69 (F := Ideal) x0 x1 x2 x3 x4 x5 x6 x7 x8 x9 x10 x15 x16 x17 x18
      = normTail (F := Ideal) shapeCasts_S8192x1_S8192 reducesTo_S8192_S_d0 h_S_ bcast_S_S8192
          (val_main_v55 (F := Ideal) x0 x1 x2 x3 x4 x5 x6 x7 x8 x9 x10 x15 x16 x17 x18) := by
  -- both sides apply the same operations, in the same order, to the value head's column
  unfold val_main_v69 val_main_v68 val_main_v67 val_main_v66 val_main_v65 val_main_v64 val_main_v63 val_main_v62
    val_main_v61 val_main_v60 val_main_v59 val_main_v58 val_main_v57 val_main_v56 val_main_cst_2 val_main_cst_3
    val_main_cst_4 val_main_cst_5 val_main_cst_6 normTail meanOf
  rfl

end Cert.ReferenceIdeal.Stages

end
-- ==== Proof.lean ====
/- The certificate of the graph-network forward pass: a Pallas program of five regions against its jnp reference.

   The kernel casts the adjacency array to a narrower format once, then runs four fused regions, each a block of
   rows of "aggregate over the neighbours, affine map, clamp, affine map" (the two hidden layers clamp once more),
   and ends with a softmax of the policy column and a standardisation of the value column on the host; the reference
   computes the same layers with whole-array matrix products and the same host tail. At the exact reals a change of
   format is the identity and a matrix product into a zero accumulator is the plain sum over the contracted index,
   so both programs compute one function of the nineteen arguments: the shared tails of two heads over two hidden
   layers of the stacked distances. No law used needs the entries finite (only 0 + x = x and reading sums index by
   index), so the precondition is not opened.
   The three frames are the generated ones (the reference's is its generated run with the results dropped); the
   ideal pass rewrote nothing, so the idealization conjunct is trivial; the value claim is assembled below. -/
import proofs.«101973_j47141561041408_1_alg».proof.Defs
import proofs.«101973_j47141561041408_1_alg».proof.Proof.Gen.Kernel.Frame
import proofs.«101973_j47141561041408_1_alg».proof.Proof.Gen.KernelIdeal.Frame
import proofs.«101973_j47141561041408_1_alg».proof.Proof.Gen.ReferenceIdeal.Run
import proofs.«101973_j47141561041408_1_alg».proof.Proof.Gen.ReferenceIdeal.Read
import proofs.«101973_j47141561041408_1_alg».proof.Proof.Gen.Pre_finite_inputs
import proofs.«101973_j47141561041408_1_alg».proof.Proof.KernelChain
import proofs.«101973_j47141561041408_1_alg».proof.Proof.RefStages
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The reference's policy stage, of the kernel's arguments, is the kernel's policy: the same softmax of the same
    head over the same hidden layers. -/
theorem reference_policy (m : (ℓ : Loc Cert.KernelIdeal.nD Cert.KernelIdeal.τ Cert.KernelIdeal.sig) → Buf (Elt Ideal) ℓ) (c : Dev Cert.KernelIdeal.nD) :
    Cert.ReferenceIdeal.Read.val_main_v45 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))
      = Cert.KernelIdeal.Chain.policyOf m c := by
  rw [Cert.ReferenceIdeal.Stages.policyTail_eq]
  unfold Cert.KernelIdeal.Chain.policyOf
  -- the same softmax on both sides: compare the columns it is applied to
  congr 1
  rw [Cert.ReferenceIdeal.Stages.policy_eq, Cert.ReferenceIdeal.Stages.hidden1_eq, Cert.ReferenceIdeal.Stages.hidden0_eq,
    Cert.ReferenceIdeal.Stages.stack_eq]
  rfl

/-- The reference's value stage, of the kernel's arguments, is the kernel's value: the same standardisation of the
    same head over the same hidden layers. -/
theorem reference_value (m : (ℓ : Loc Cert.KernelIdeal.nD Cert.KernelIdeal.τ Cert.KernelIdeal.sig) → Buf (Elt Ideal) ℓ) (c : Dev Cert.KernelIdeal.nD) :
    Cert.ReferenceIdeal.Read.val_main_v69 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))
      = Cert.KernelIdeal.Chain.valueOf m c := by
  rw [Cert.ReferenceIdeal.Stages.valueTail_eq]
  unfold Cert.KernelIdeal.Chain.valueOf
  -- the same standardisation on both sides: compare the columns it is applied to
  congr 1
  rw [Cert.ReferenceIdeal.Stages.value_eq, Cert.ReferenceIdeal.Stages.hidden1_eq, Cert.ReferenceIdeal.Stages.hidden0_eq,
    Cert.ReferenceIdeal.Stages.stack_eq]
  rfl

/-- Both programs end with the policy at the softmax of the policy head and the value at the standardised value
    head, over the same hidden layers of arguments that agree. -/
theorem algebraic : Cert.algebraic_KernelIdeal_ReferenceIdeal := by
  intro m ρ m' ρ' _ hagree
  refine ⟨Cert.KernelIdeal.Chain.policyOf m, Cert.KernelIdeal.Chain.valueOf m, Cert.KernelIdeal.Chain.run_value m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · obtain ⟨e0, e1, e2, e3, e4, e5, e6, e7, e8, e9, e10, e11, e12, e13, e14, e15, e16, e17, e18⟩ := hagree c
    rw [Cert.ReferenceIdeal.Read.val_main_v45_eq, e0, e1, e2, e3, e4, e5, e6, e7, e8, e9, e10, e11, e12, e13, e14]
    exact reference_policy m c
  · obtain ⟨e0, e1, e2, e3, e4, e5, e6, e7, e8, e9, e10, e11, e12, e13, e14, e15, e16, e17, e18⟩ := hagree c
    rw [Cert.ReferenceIdeal.Read.val_main_v69_eq, e0, e1, e2, e3, e4, e5, e6, e7, e8, e9, e10, e15, e16, e17, e18]
    exact reference_value m c

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
